-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x8x7x7x256 : Shape := ⟨6, ![64, 8, 8, 7, 7, 256]⟩
abbrev S768x256 : Shape := ⟨2, ![768, 256]⟩
abbrev S256x256 : Shape := ⟨2, ![256, 256]⟩
abbrev S169x8 : Shape := ⟨2, ![169, 8]⟩
abbrev S49x49 : Shape := ⟨2, ![49, 49]⟩
abbrev S_ : Shape := ⟨0, ![]⟩

class Facts : Prop where
  bcast_S_S64x8x8x7x7x256 : S_.BroadcastsInDim S64x8x8x7x7x256 (![] : Fin 0 → Fin S64x8x8x7x7x256.rank)
  reducesTo_S64x8x8x7x7x256_S_d0_1_2_3_4_5 : S64x8x8x7x7x256.ReducesTo [0, 1, 2, 3, 4, 5] S_
  h_S_ : 0 < S_.numel
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_
  bcast_S_S169x8 : S_.BroadcastsInDim S169x8 (![] : Fin 0 → Fin S169x8.rank)
  reducesTo_S169x8_S_d0_1 : S169x8.ReducesTo [0, 1] S_

variable [Facts]

def fn_part1 {F : FTy → Type} [FloatOps F] (main_v13 : IVec S_ 1) (main_v16 : IVec S169x8 1) : IVec S_ 1 :=
  let main_c_5 : IVec S_ 1 := constantI S_ 1 1#1
  let main_v17 : IVec S_ 1 := (fun x v => Host.reduce IntOp.andi x v reducesTo_S169x8_S_d0_1 h_S_) main_v16 main_c_5
  let main_v18 : IVec S_ 1 := andi main_v13 main_v17
  main_v18

def fn {F : FTy → Type} [FloatOps F] (main_arg0 : FVec F S64x8x8x7x7x256 .f32) (main_arg1 : FVec F S768x256 .f32) (main_arg2 : FVec F S256x256 .f32) (main_arg3 : FVec F S169x8 .f32) (main_arg4 : IVec S49x49 32) : IVec S_ 1 :=
  let main_v0 : FVec F S64x8x8x7x7x256 .f32 := Host.absf main_arg0
  let main_cst : FVec F S_ .f32 := constant S_ .f32 0x7F800000#32
  let main_v1 : FVec F S64x8x8x7x7x256 .f32 := broadcastInDim S64x8x8x7x7x256 ![] bcast_S_S64x8x8x7x7x256 main_cst
  let main_v2 : IVec S64x8x8x7x7x256 1 := cmpf .olt main_v0 main_v1
  let main_c : IVec S_ 1 := constantI S_ 1 1#1
  let main_v3 : IVec S_ 1 := (fun x v => Host.reduce IntOp.andi x v reducesTo_S64x8x8x7x7x256_S_d0_1_2_3_4_5 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S169x8 .f32 := Host.absf main_arg3
  let main_cst_4 : FVec F S_ .f32 := constant S_ .f32 0x7F800000#32
  let main_v15 : FVec F S169x8 .f32 := broadcastInDim S169x8 ![] bcast_S_S169x8 main_cst_4
  let main_v16 : IVec S169x8 1 := cmpf .olt main_v14 main_v15
  fn_part1 (F := F) main_v13 main_v16
-- ==== Kernel.lean ====
abbrev S64x8x8x7x7x256 : Shape := ⟨6, ![64, 8, 8, 7, 7, 256]⟩
abbrev S768x256 : Shape := ⟨2, ![768, 256]⟩
abbrev S256x256 : Shape := ⟨2, ![256, 256]⟩
abbrev S169x8 : Shape := ⟨2, ![169, 8]⟩
abbrev S49x49 : Shape := ⟨2, ![49, 49]⟩
abbrev S4096x49x256 : Shape := ⟨3, ![4096, 49, 256]⟩
abbrev S256x768 : Shape := ⟨2, ![256, 768]⟩
abbrev S_ : Shape := ⟨0, ![]⟩
abbrev S49x49x1 : Shape := ⟨3, ![49, 49, 1]⟩
abbrev S49x49x8 : Shape := ⟨3, ![49, 49, 8]⟩
abbrev S8x49x49 : Shape := ⟨3, ![8, 49, 49]⟩
abbrev S16x49x256 : Shape := ⟨3, ![16, 49, 256]⟩
abbrev S784x256 : Shape := ⟨2, ![784, 256]⟩
abbrev S784x768 : Shape := ⟨2, ![784, 768]⟩
abbrev S16x49x768 : Shape := ⟨3, ![16, 49, 768]⟩
abbrev S16x49x32 : Shape := ⟨3, ![16, 49, 32]⟩
abbrev S16x49x49 : Shape := ⟨3, ![16, 49, 49]⟩
abbrev S1x49x49 : Shape := ⟨3, ![1, 49, 49]⟩
abbrev S16x49 : Shape := ⟨2, ![16, 49]⟩
abbrev S16x49x1 : Shape := ⟨3, ![16, 49, 1]⟩

abbrev nBuf : Space → Nat
  | .hbm => 22
  | .vmem => 7
  | .smem => 0
  | _ => 0

abbrev bufTy : (tb : Table) → Fin (tcTables nBuf tb) → BufTy
  | .hbm, ⟨0, _⟩ => ⟨S64x8x8x7x7x256, .f32⟩
  | .hbm, ⟨1, _⟩ => ⟨S768x256, .f32⟩
  | .hbm, ⟨2, _⟩ => ⟨S256x256, .f32⟩
  | .hbm, ⟨3, _⟩ => ⟨S169x8, .f32⟩
  | .hbm, ⟨4, _⟩ => ⟨S49x49, .i32⟩
  | .hbm, ⟨5, _⟩ => ⟨S4096x49x256, .f32⟩
  | .hbm, ⟨6, _⟩ => ⟨S256x768, .f32⟩
  | .hbm, ⟨7, _⟩ => ⟨S256x768, .bf16⟩
  | .hbm, ⟨8, _⟩ => ⟨S256x256, .f32⟩
  | .hbm, ⟨9, _⟩ => ⟨S256x256, .bf16⟩
  | .hbm, ⟨10, _⟩ => ⟨S_, .i32⟩
  | .hbm, ⟨11, _⟩ => ⟨S49x49, .i32⟩
  | .hbm, ⟨12, _⟩ => ⟨S49x49, .i1⟩
  | .hbm, ⟨13, _⟩ => ⟨S_, .i32⟩
  | .hbm, ⟨14, _⟩ => ⟨S49x49, .i32⟩
  | .hbm, ⟨15, _⟩ => ⟨S49x49, .i32⟩
  | .hbm, ⟨16, _⟩ => ⟨S49x49, .i32⟩
  | .hbm, ⟨17, _⟩ => ⟨S49x49x1, .i32⟩
  | .hbm, ⟨18, _⟩ => ⟨S49x49x8, .f32⟩
  | .hbm, ⟨19, _⟩ => ⟨S8x49x49, .f32⟩
  | .hbm, ⟨20, _⟩ => ⟨S4096x49x256, .f32⟩
  | .hbm, ⟨21, _⟩ => ⟨S64x8x8x7x7x256, .f32⟩
  | .local _ .vmem, ⟨0, _⟩ => ⟨S16x49x256, .f32⟩
  | .local _ .vmem, ⟨1, _⟩ => ⟨S16x49x256, .f32⟩
  | .local _ .vmem, ⟨2, _⟩ => ⟨S256x768, .bf16⟩
  | .local _ .vmem, ⟨3, _⟩ => ⟨S256x256, .bf16⟩
  | .local _ .vmem, ⟨4, _⟩ => ⟨S8x49x49, .f32⟩
  | .local _ .vmem, ⟨5, _⟩ => ⟨S16x49x256, .f32⟩
  | .local _ .vmem, ⟨6, _⟩ => ⟨S16x49x256, .f32⟩
  | _, _ => ⟨S64x8x8x7x7x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x49x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x49x49 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x49x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x8x8x7x7x256_S4096x49x256 : S64x8x8x7x7x256.ShapeCasts S4096x49x256
  transposes_S768x256_S256x768_1_0 : S768x256.Transposes [1, 0] S256x768
  bitsLt_bf16_f32 : FTy.bits .bf16 < FTy.bits .f32
  transposes_S256x256_S256x256_1_0 : S256x256.Transposes [1, 0] S256x256
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x8_S8x49x49_2_0_1 : S49x49x8.Transposes [2, 0, 1] S8x49x49
  inb_S16x49x256_S16x49x256_0_0_0 : ∀ a, (![0, 0, 0] : Fin 3 → Nat) a + S16x49x256.size a ≤ S16x49x256.size a
  h_S16x49x256 : 0 < S16x49x256.numel
  shapeCasts_S16x49x256_S16x49x256 : S16x49x256.ShapeCasts S16x49x256
  shapeCasts_S16x49x256_S784x256 : S16x49x256.ShapeCasts S784x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  shapeCasts_S784x768_S16x49x768 : S784x768.ShapeCasts S16x49x768
  slices_S16x49x768_o0_0_0_S16x49x256 : S16x49x768.Slices ![0, 0, 0] S16x49x256
  slices_S16x49x768_o0_0_256_S16x49x256 : S16x49x768.Slices ![0, 0, 256] S16x49x256
  slices_S16x49x768_o0_0_512_S16x49x256 : S16x49x768.Slices ![0, 0, 512] S16x49x256
  slices_S16x49x256_o0_0_0_S16x49x32 : S16x49x256.Slices ![0, 0, 0] S16x49x32
  inb_S8x49x49_S1x49x49_0_0_0 : ∀ a, (![0, 0, 0] : Fin 3 → Nat) a + S1x49x49.size a ≤ S8x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S16x49x49 : S1x49x49.Broadcasts S16x49x49
  reduces_S16x49x49_S16x49 : S16x49x49.Reduces [2] S16x49
  shapeCasts_S16x49_S16x49x1 : S16x49.ShapeCasts S16x49x1
  broadcasts_S16x49x1_S16x49x49 : S16x49x1.Broadcasts S16x49x49
  slices_S16x49x256_o0_0_32_S16x49x32 : S16x49x256.Slices ![0, 0, 32] S16x49x32
  inb_S8x49x49_S1x49x49_1_0_0 : ∀ a, (![1, 0, 0] : Fin 3 → Nat) a + S1x49x49.size a ≤ S8x49x49.size a
  slices_S16x49x256_o0_0_64_S16x49x32 : S16x49x256.Slices ![0, 0, 64] S16x49x32
  inb_S8x49x49_S1x49x49_2_0_0 : ∀ a, (![2, 0, 0] : Fin 3 → Nat) a + S1x49x49.size a ≤ S8x49x49.size a
  slices_S16x49x256_o0_0_96_S16x49x32 : S16x49x256.Slices ![0, 0, 96] S16x49x32
  inb_S8x49x49_S1x49x49_3_0_0 : ∀ a, (![3, 0, 0] : Fin 3 → Nat) a + S1x49x49.size a ≤ S8x49x49.size a
  slices_S16x49x256_o0_0_128_S16x49x32 : S16x49x256.Slices ![0, 0, 128] S16x49x32
  inb_S8x49x49_S1x49x49_4_0_0 : ∀ a, (![4, 0, 0] : Fin 3 → Nat) a + S1x49x49.size a ≤ S8x49x49.size a
  slices_S16x49x256_o0_0_160_S16x49x32 : S16x49x256.Slices ![0, 0, 160] S16x49x32
  inb_S8x49x49_S1x49x49_5_0_0 : ∀ a, (![5, 0, 0] : Fin 3 → Nat) a + S1x49x49.size a ≤ S8x49x49.size a
  slices_S16x49x256_o0_0_192_S16x49x32 : S16x49x256.Slices ![0, 0, 192] S16x49x32
  inb_S8x49x49_S1x49x49_6_0_0 : ∀ a, (![6, 0, 0] : Fin 3 → Nat) a + S1x49x49.size a ≤ S8x49x49.size a
  slices_S16x49x256_o0_0_224_S16x49x32 : S16x49x256.Slices ![0, 0, 224] S16x49x32
  inb_S8x49x49_S1x49x49_7_0_0 : ∀ a, (![7, 0, 0] : Fin 3 → Nat) a + S1x49x49.size a ≤ S8x49x49.size a
  concatenates_S16x49x32_S16x49x32_S16x49x32_S16x49x32_S16x49x32_S16x49x32_S16x49x32_S16x49x32_S16x49x256_d2 : Shape.Concatenates [S16x49x32, S16x49x32, S16x49x32, S16x49x32, S16x49x32, S16x49x32, S16x49x32, S16x49x32] S16x49x256 2
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S784x256_S16x49x256 : S784x256.ShapeCasts S16x49x256
  shapeCasts_S4096x49x256_S64x8x8x7x7x256 : S4096x49x256.ShapeCasts S64x8x8x7x7x256
  gather_S169x8_S49x49x1_S49x49x8_2_0_n_n_0_2_18_wf : GatherDims.WF S169x8 S49x49x1 S49x49x8 [2] [0] [] [0] [] 2 ![1, 8]
  dot_S784x256_S256x768_S784x768_1_0_0_1_n_n_wf : DotDims.WF S784x256 S256x768 S784x768 [1] [0] [0] [1] [] []
  dot_S16x49x32_S16x49x32_S16x49x49_2_2_1_1_0_0_wf : DotDims.WF S16x49x32 S16x49x32 S16x49x49 [2] [2] [1] [1] [0] [0]
  dot_S16x49x49_S16x49x32_S16x49x32_2_1_1_2_0_0_wf : DotDims.WF S16x49x49 S16x49x32 S16x49x32 [2] [1] [1] [2] [0] [0]
  dot_S784x256_S256x256_S784x256_1_0_0_1_n_n_wf : DotDims.WF S784x256 S256x256 S784x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x49x256.size a ≤ S4096x49x256.size a
  hwx0_0 : ∀ i : grid0.Coords, EltTy.bits .f32 = 32 ∨ (Rect.block (s := S4096x49x256) S16x49x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x49x49.size a ≤ S8x49x49.size a
  hwx0_3 : ∀ i : grid0.Coords, EltTy.bits .f32 = 32 ∨ (Rect.block (s := S8x49x49) S8x49x49.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x49x256.size a ≤ S4096x49x256.size a
  hwx0_4 : ∀ i : grid0.Coords, EltTy.bits .f32 = 32 ∨ (Rect.block (s := S4096x49x256) S16x49x256.size (cc0_transform_4 i) (hinb0_4 i)).WholeWords (EltTy.packing .f32)

variable [Facts₀]

def gather_S169x8_S49x49x1_S49x49x8_2_0_n_n_0_2_18 : GatherDims S169x8 S49x49x1 S49x49x8 where
  offsetDims := [2]
  collapsedSliceDims := [0]
  operandBatchingDims := []
  startIndicesBatchingDims := []
  startIndexMap := [0]
  indexVectorDim := 2
  sliceSizes := ![1, 8]
  wf := gather_S169x8_S49x49x1_S49x49x8_2_0_n_n_0_2_18_wf
def dot_S784x256_S256x768_S784x768_1_0_0_1_n_n : DotDims S784x256 S256x768 S784x768 where
  lhsContracting := [1]
  rhsContracting := [0]
  lhsNonContracting := [0]
  rhsNonContracting := [1]
  lhsBatch := []
  rhsBatch := []
  wf := dot_S784x256_S256x768_S784x768_1_0_0_1_n_n_wf
def dot_S16x49x32_S16x49x32_S16x49x49_2_2_1_1_0_0 : DotDims S16x49x32 S16x49x32 S16x49x49 where
  lhsContracting := [2]
  rhsContracting := [2]
  lhsNonContracting := [1]
  rhsNonContracting := [1]
  lhsBatch := [0]
  rhsBatch := [0]
  wf := dot_S16x49x32_S16x49x32_S16x49x49_2_2_1_1_0_0_wf
def dot_S16x49x49_S16x49x32_S16x49x32_2_1_1_2_0_0 : DotDims S16x49x49 S16x49x32 S16x49x32 where
  lhsContracting := [2]
  rhsContracting := [1]
  lhsNonContracting := [1]
  rhsNonContracting := [2]
  lhsBatch := [0]
  rhsBatch := [0]
  wf := dot_S16x49x49_S16x49x32_S16x49x32_2_1_1_2_0_0_wf
def dot_S784x256_S256x256_S784x256_1_0_0_1_n_n : DotDims S784x256 S256x256 S784x256 where
  lhsContracting := [1]
  rhsContracting := [0]
  lhsNonContracting := [0]
  rhsNonContracting := [1]
  lhsBatch := []
  rhsBatch := []
  wf := dot_S784x256_S256x256_S784x256_1_0_0_1_n_n_wf

abbrev win0_0 : Pipeline.Window sig grid0 :=
  Pipeline.Window.ofSpec (Memref.whole main_v0) S16x49x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8x49x49.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S16x49x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x8x8x7x7x256 : Shape := ⟨6, ![64, 8, 8, 7, 7, 256]⟩
abbrev S768x256 : Shape := ⟨2, ![768, 256]⟩
abbrev S256x256 : Shape := ⟨2, ![256, 256]⟩
abbrev S169x8 : Shape := ⟨2, ![169, 8]⟩
abbrev S49x49 : Shape := ⟨2, ![49, 49]⟩
abbrev S4096x49x256 : Shape := ⟨3, ![4096, 49, 256]⟩
abbrev S4096x49x768 : Shape := ⟨3, ![4096, 49, 768]⟩
abbrev S4096x49x8x32 : Shape := ⟨4, ![4096, 49, 8, 32]⟩
abbrev S4096x8x49x32 : Shape := ⟨4, ![4096, 8, 49, 32]⟩
abbrev S_ : Shape := ⟨0, ![]⟩
abbrev S4096x8x49x49 : Shape := ⟨4, ![4096, 8, 49, 49]⟩
abbrev S49x49x1 : Shape := ⟨3, ![49, 49, 1]⟩
abbrev S49x49x8 : Shape := ⟨3, ![49, 49, 8]⟩
abbrev S8x49x49 : Shape := ⟨3, ![8, 49, 49]⟩
abbrev S1x8x49x49 : Shape := ⟨4, ![1, 8, 49, 49]⟩
abbrev S4096x8x49 : Shape := ⟨3, ![4096, 8, 49]⟩
abbrev S4096x8x49x1 : Shape := ⟨4, ![4096, 8, 49, 1]⟩
abbrev S4096x7x7x256 : Shape := ⟨4, ![4096, 7, 7, 256]⟩

abbrev nBuf : Space → Nat
  | .hbm => 52
  | .vmem => 0
  | .smem => 0
  | _ => 0

abbrev bufTy : (tb : Table) → Fin (tcTables nBuf tb) → BufTy
  | .hbm, ⟨0, _⟩ => ⟨S64x8x8x7x7x256, .f32⟩
  | .hbm, ⟨1, _⟩ => ⟨S768x256, .f32⟩
  | .hbm, ⟨2, _⟩ => ⟨S256x256, .f32⟩
  | .hbm, ⟨3, _⟩ => ⟨S169x8, .f32⟩
  | .hbm, ⟨4, _⟩ => ⟨S49x49, .i32⟩
  | .hbm, ⟨5, _⟩ => ⟨S4096x49x256, .f32⟩
  | .hbm, ⟨6, _⟩ => ⟨S4096x49x768, .f32⟩
  | .hbm, ⟨7, _⟩ => ⟨S4096x49x256, .f32⟩
  | .hbm, ⟨8, _⟩ => ⟨S4096x49x256, .f32⟩
  | .hbm, ⟨9, _⟩ => ⟨S4096x49x256, .f32⟩
  | .hbm, ⟨10, _⟩ => ⟨S4096x49x8x32, .f32⟩
  | .hbm, ⟨11, _⟩ => ⟨S4096x8x49x32, .f32⟩
  | .hbm, ⟨12, _⟩ => ⟨S4096x49x8x32, .f32⟩
  | .hbm, ⟨13, _⟩ => ⟨S4096x8x49x32, .f32⟩
  | .hbm, ⟨14, _⟩ => ⟨S4096x49x8x32, .f32⟩
  | .hbm, ⟨15, _⟩ => ⟨S4096x8x49x32, .f32⟩
  | .hbm, ⟨16, _⟩ => ⟨S_, .f32⟩
  | .hbm, ⟨17, _⟩ => ⟨S4096x8x49x32, .f32⟩
  | .hbm, ⟨18, _⟩ => ⟨S4096x8x49x32, .f32⟩
  | .hbm, ⟨19, _⟩ => ⟨S4096x8x49x49, .f32⟩
  | .hbm, ⟨20, _⟩ => ⟨S_, .i32⟩
  | .hbm, ⟨21, _⟩ => ⟨S49x49, .i32⟩
  | .hbm, ⟨22, _⟩ => ⟨S49x49, .i1⟩
  | .hbm, ⟨23, _⟩ => ⟨S_, .i32⟩
  | .hbm, ⟨24, _⟩ => ⟨S49x49, .i32⟩
  | .hbm, ⟨25, _⟩ => ⟨S49x49, .i32⟩
  | .hbm, ⟨26, _⟩ => ⟨S49x49, .i32⟩
  | .hbm, ⟨27, _⟩ => ⟨S49x49x1, .i32⟩
  | .hbm, ⟨28, _⟩ => ⟨S49x49x8, .f32⟩
  | .hbm, ⟨29, _⟩ => ⟨S8x49x49, .f32⟩
  | .hbm, ⟨30, _⟩ => ⟨S1x8x49x49, .f32⟩
  | .hbm, ⟨31, _⟩ => ⟨S4096x8x49x49, .f32⟩
  | .hbm, ⟨32, _⟩ => ⟨S4096x8x49x49, .f32⟩
  | .hbm, ⟨33, _⟩ => ⟨S_, .f32⟩
  | .hbm, ⟨34, _⟩ => ⟨S4096x8x49, .f32⟩
  | .hbm, ⟨35, _⟩ => ⟨S_, .f32⟩
  | .hbm, ⟨36, _⟩ => ⟨S4096x8x49, .f32⟩
  | .hbm, ⟨37, _⟩ => ⟨S4096x8x49, .f32⟩
  | .hbm, ⟨38, _⟩ => ⟨S4096x8x49x1, .f32⟩
  | .hbm, ⟨39, _⟩ => ⟨S4096x8x49x49, .f32⟩
  | .hbm, ⟨40, _⟩ => ⟨S4096x8x49x49, .f32⟩
  | .hbm, ⟨41, _⟩ => ⟨S4096x8x49x49, .f32⟩
  | .hbm, ⟨42, _⟩ => ⟨S_, .f32⟩
  | .hbm, ⟨43, _⟩ => ⟨S4096x8x49, .f32⟩
  | .hbm, ⟨44, _⟩ => ⟨S4096x8x49x1, .f32⟩
  | .hbm, ⟨45, _⟩ => ⟨S4096x8x49x49, .f32⟩
  | .hbm, ⟨46, _⟩ => ⟨S4096x8x49x49, .f32⟩
  | .hbm, ⟨47, _⟩ => ⟨S4096x8x49x32, .f32⟩
  | .hbm, ⟨48, _⟩ => ⟨S4096x49x8x32, .f32⟩
  | .hbm, ⟨49, _⟩ => ⟨S4096x7x7x256, .f32⟩
  | .hbm, ⟨50, _⟩ => ⟨S4096x7x7x256, .f32⟩
  | .hbm, ⟨51, _⟩ => ⟨S64x8x8x7x7x256, .f32⟩
  | _, _ => ⟨S64x8x8x7x7x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

class Facts₀ : Prop where
  shapeCasts_S64x8x8x7x7x256_S4096x49x256 : S64x8x8x7x7x256.ShapeCasts S4096x49x256
  slices_S4096x49x768_S4096x49x256_0_0_0 : S4096x49x768.Slices ![0, 0, 0] S4096x49x256
  slices_S4096x49x768_S4096x49x256_0_0_256 : S4096x49x768.Slices ![0, 0, 256] S4096x49x256
  slices_S4096x49x768_S4096x49x256_0_0_512 : S4096x49x768.Slices ![0, 0, 512] S4096x49x256
  shapeCasts_S4096x49x256_S4096x49x8x32 : S4096x49x256.ShapeCasts S4096x49x8x32
  transposes_S4096x49x8x32_S4096x8x49x32_0_2_1_3 : S4096x49x8x32.Transposes [0, 2, 1, 3] S4096x8x49x32
  bcast_S_S4096x8x49x32 : S_.BroadcastsInDim S4096x8x49x32 (![] : Fin 0 → Fin S4096x8x49x32.rank)
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x8_S8x49x49_2_0_1 : S49x49x8.Transposes [2, 0, 1] S8x49x49
  bcast_S8x49x49_S1x8x49x49_1_2_3 : S8x49x49.BroadcastsInDim S1x8x49x49 (![1, 2, 3] : Fin 3 → Fin S1x8x49x49.rank)
  bcast_S1x8x49x49_S4096x8x49x49_0_1_2_3 : S1x8x49x49.BroadcastsInDim S4096x8x49x49 (![0, 1, 2, 3] : Fin 4 → Fin S4096x8x49x49.rank)
  reducesTo_S4096x8x49x49_S4096x8x49_d3 : S4096x8x49x49.ReducesTo [3] S4096x8x49
  h_S_ : 0 < S_.numel
  bcast_S_S4096x8x49 : S_.BroadcastsInDim S4096x8x49 (![] : Fin 0 → Fin S4096x8x49.rank)
  bcast_S4096x8x49_S4096x8x49x1_0_1_2 : S4096x8x49.BroadcastsInDim S4096x8x49x1 (![0, 1, 2] : Fin 3 → Fin S4096x8x49x1.rank)
  bcast_S4096x8x49x1_S4096x8x49x49_0_1_2_3 : S4096x8x49x1.BroadcastsInDim S4096x8x49x49 (![0, 1, 2, 3] : Fin 4 → Fin S4096x8x49x49.rank)
  transposes_S4096x8x49x32_S4096x49x8x32_0_2_1_3 : S4096x8x49x32.Transposes [0, 2, 1, 3] S4096x49x8x32
  shapeCasts_S4096x49x8x32_S4096x7x7x256 : S4096x49x8x32.ShapeCasts S4096x7x7x256
  shapeCasts_S4096x7x7x256_S64x8x8x7x7x256 : S4096x7x7x256.ShapeCasts S64x8x8x7x7x256
  dot_S4096x49x256_S768x256_S4096x49x768_2_1_01_0_n_n_wf : DotDims.WF S4096x49x256 S768x256 S4096x49x768 [2] [1] [0, 1] [0] [] []
  dot_S4096x8x49x32_S4096x8x49x32_S4096x8x49x49_3_3_2_2_01_01_wf : DotDims.WF S4096x8x49x32 S4096x8x49x32 S4096x8x49x49 [3] [3] [2] [2] [0, 1] [0, 1]
  gather_S169x8_S49x49x1_S49x49x8_2_0_n_n_0_2_18_wf : GatherDims.WF S169x8 S49x49x1 S49x49x8 [2] [0] [] [0] [] 2 ![1, 8]
  dot_S4096x8x49x49_S4096x8x49x32_S4096x8x49x32_3_2_2_3_01_01_wf : DotDims.WF S4096x8x49x49 S4096x8x49x32 S4096x8x49x32 [3] [2] [2] [3] [0, 1] [0, 1]
  dot_S4096x7x7x256_S256x256_S4096x7x7x256_3_1_012_0_n_n_wf : DotDims.WF S4096x7x7x256 S256x256 S4096x7x7x256 [3] [1] [0, 1, 2] [0] [] []

variable [Facts₀]

def dot_S4096x49x256_S768x256_S4096x49x768_2_1_01_0_n_n : DotDims S4096x49x256 S768x256 S4096x49x768 where
  lhsContracting := [2]
  rhsContracting := [1]
  lhsNonContracting := [0, 1]
  rhsNonContracting := [0]
  lhsBatch := []
  rhsBatch := []
  wf := dot_S4096x49x256_S768x256_S4096x49x768_2_1_01_0_n_n_wf
def dot_S4096x8x49x32_S4096x8x49x32_S4096x8x49x49_3_3_2_2_01_01 : DotDims S4096x8x49x32 S4096x8x49x32 S4096x8x49x49 where
  lhsContracting := [3]
  rhsContracting := [3]
  lhsNonContracting := [2]
  rhsNonContracting := [2]
  lhsBatch := [0, 1]
  rhsBatch := [0, 1]
  wf := dot_S4096x8x49x32_S4096x8x49x32_S4096x8x49x49_3_3_2_2_01_01_wf
def gather_S169x8_S49x49x1_S49x49x8_2_0_n_n_0_2_18 : GatherDims S169x8 S49x49x1 S49x49x8 where
  offsetDims := [2]
  collapsedSliceDims := [0]
  operandBatchingDims := []
  startIndicesBatchingDims := []
  startIndexMap := [0]
  indexVectorDim := 2
  sliceSizes := ![1, 8]
  wf := gather_S169x8_S49x49x1_S49x49x8_2_0_n_n_0_2_18_wf
def dot_S4096x8x49x49_S4096x8x49x32_S4096x8x49x32_3_2_2_3_01_01 : DotDims S4096x8x49x49 S4096x8x49x32 S4096x8x49x32 where
  lhsContracting := [3]
  rhsContracting := [2]
  lhsNonContracting := [2]
  rhsNonContracting := [3]
  lhsBatch := [0, 1]
  rhsBatch := [0, 1]
  wf := dot_S4096x8x49x49_S4096x8x49x32_S4096x8x49x32_3_2_2_3_01_01_wf
def dot_S4096x7x7x256_S256x256_S4096x7x7x256_3_1_012_0_n_n : DotDims S4096x7x7x256 S256x256 S4096x7x7x256 where
  lhsContracting := [3]
  rhsContracting := [1]
  lhsNonContracting := [0, 1, 2]
  rhsNonContracting := [0]
  lhsBatch := []
  rhsBatch := []
  wf := dot_S4096x7x7x256_S256x256_S4096x7x7x256_3_1_012_0_n_n_wf

class Facts : Prop extends Facts₀ where

variable [Facts]
-- ==== Proof.KDefs.lean ====
/-
  The kernel body's arithmetic, regrouped by what it computes.  One head of attention on a block of 16 windows:
  the score product of a 32-column slice of the scaled queries with the same slice of the keys, the head's bias
  added to every window, each row's maximum subtracted, exponentials, each row divided by its sum, and the weighted
  sum of the same slice of the values.  The eight heads' outputs are laid side by side and multiplied by the output
  weights.  These definitions hold for every float instance; the body's stored value is shown to be `projOut` of
  eight `headBlock`s by unfolding alone.
-/
import proofs.«420347_j25786983645333_4_alg».proof.Proof.Gen.KernelIdeal

noncomputable section

namespace Cert.KernelIdeal.KBlock

open Cert.KernelIdeal Cert.KernelIdeal.Gen Idealize.ShloMosaic

variable {F : FTy → Type} [FloatOps F]

/-- The 32 columns starting at `o` of a [16, 49, 256] block. -/
def sl (o : Nat) (x : FVec F S16x49x256 .bf16) (h : S16x49x256.Slices ![0, 0, o] S16x49x32) : FVec F S16x49x32 .bf16 :=
  extractStridedSlice S16x49x32 ![0, 0, o] x h

/-- Scores before the bias: per window, queries against keys over the head's columns. -/
def scores (q k : FVec F S16x49x32 .bf16) : FVec F S16x49x49 .f32 :=
  matmul dot_S16x49x32_S16x49x32_S16x49x49_2_2_1_1_0_0 none q k (constant S16x49x49 .f32 0x00000000#32)

/-- One head's [1, 49, 49] bias slab repeated for the 16 windows. -/
def biasAll (b : Vec F S1x49x49 .f32) : FVec F S16x49x49 .f32 :=
  broadcastTo S16x49x49 (shapeCast S1x49x49 (shapeCast S49x49 b shapeCasts_S1x49x49_S49x49) shapeCasts_S49x49_S1x49x49)
    broadcasts_S1x49x49_S16x49x49

/-- Each row's maximum, repeated along the row. -/
def rowMaxAll (s : FVec F S16x49x49 .f32) : FVec F S16x49x49 .f32 :=
  broadcastTo S16x49x49
    (shapeCast S16x49x1 (multiReduction .maximumf [2] S16x49 s 0xFF800000#32 reduces_S16x49x49_S16x49 (.inl rfl) rfl)
      shapeCasts_S16x49_S16x49x1) broadcasts_S16x49x1_S16x49x49

/-- Exponentials of the scores less their row maximum. -/
def expAll (s : FVec F S16x49x49 .f32) : FVec F S16x49x49 .f32 := exp (subf s (rowMaxAll s))

/-- Each row's sum, repeated along the row. -/
def rowSumAll (p : FVec F S16x49x49 .f32) : FVec F S16x49x49 .f32 :=
  broadcastTo S16x49x49
    (shapeCast S16x49x1 (multiReduction .add [2] S16x49 p 0x00000000#32 reduces_S16x49x49_S16x49 (.inl rfl) rfl)
      shapeCasts_S16x49_S16x49x1) broadcasts_S16x49x1_S16x49x49

/-- The softmax weights: every entry over its row's sum. -/
def weights (p : FVec F S16x49x49 .f32) : FVec F S16x49x49 .bf16 := truncf .bf16 (divf p (rowSumAll p)) bitsLt_bf16_f32

/-- The weighted sum of the values. -/
def mix (a : FVec F S16x49x49 .bf16) (v : FVec F S16x49x32 .bf16) : FVec F S16x49x32 .bf16 :=
  truncf .bf16 (matmul dot_S16x49x49_S16x49x32_S16x49x32_2_1_1_2_0_0 none a v (constant S16x49x32 .f32 0x00000000#32))
    bitsLt_bf16_f32

/-- One head on the block. -/
def headBlock (q k v : FVec F S16x49x32 .bf16) (b : Vec F S1x49x49 .f32) : FVec F S16x49x32 .bf16 :=
  mix (weights (expAll (addf (scores q k) (biasAll b)))) v

/-- The heads' outputs side by side, times the output weights. -/
def projOut (h0 h1 h2 h3 h4 h5 h6 h7 : FVec F S16x49x32 .bf16) (w : Vec F S256x256 .bf16) : FVec F S16x49x256 .f32 :=
  shapeCast S16x49x256
    (matmul dot_S784x256_S256x256_S784x256_1_0_0_1_n_n none
      (shapeCast S784x256
        (concatenate S16x49x256 2 [⟨S16x49x32, h0⟩, ⟨S16x49x32, h1⟩, ⟨S16x49x32, h2⟩, ⟨S16x49x32, h3⟩, ⟨S16x49x32, h4⟩,
          ⟨S16x49x32, h5⟩, ⟨S16x49x32, h6⟩, ⟨S16x49x32, h7⟩] concatenates_S16x49x32_S16x49x32_S16x49x32_S16x49x32_S16x49x32_S16x49x32_S16x49x32_S16x49x32_S16x49x256_d2)
        shapeCasts_S16x49x256_S784x256)
      (shapeCast S256x256 w shapeCasts_S256x256_S256x256) (constant S784x256 .f32 0x00000000#32))
    shapeCasts_S784x256_S16x49x256

end Cert.KernelIdeal.KBlock

end
-- ==== Proof.KPay.lean ====
/-
  The value the kernel body stores is, by unfolding alone, the output projection of eight heads, head `h` on columns
  `32 h … 32 h + 31` of the scaled queries, the keys and the values and on slab `h` of the bias.
-/
import proofs.«420347_j25786983645333_4_alg».proof.Proof.Gen.KernelIdeal.Frame
import proofs.«420347_j25786983645333_4_alg».proof.Proof.KDefs

noncomputable section

namespace Cert.KernelIdeal.KBlock

open Cert.KernelIdeal Cert.KernelIdeal.Gen Idealize.ShloMosaic

variable {F : FTy → Type} [FloatOps F]

/-- The stored value from the loaded blocks: `v0` the 16 windows, `v4` the joint projection weights, `w` the output
    weights, `b0 … b7` the eight bias slabs. -/
def bodyValue (v0 : Vec F S16x49x256 .f32) (v4 : Vec F S256x768 .bf16) (w : Vec F S256x256 .bf16)
    (b0 b1 b2 b3 b4 b5 b6 b7 : Vec F S1x49x49 .f32) : FVec F S16x49x256 .f32 :=
  projOut
    (headBlock (sl 0 (k0_pay3 v0 v4) slices_S16x49x256_o0_0_0_S16x49x32) (sl 0 (k0_pay4 v0 v4) slices_S16x49x256_o0_0_0_S16x49x32) (sl 0 (k0_pay5 v0 v4) slices_S16x49x256_o0_0_0_S16x49x32) b0)
    (headBlock (sl 32 (k0_pay3 v0 v4) slices_S16x49x256_o0_0_32_S16x49x32) (sl 32 (k0_pay4 v0 v4) slices_S16x49x256_o0_0_32_S16x49x32) (sl 32 (k0_pay5 v0 v4) slices_S16x49x256_o0_0_32_S16x49x32) b1)
    (headBlock (sl 64 (k0_pay3 v0 v4) slices_S16x49x256_o0_0_64_S16x49x32) (sl 64 (k0_pay4 v0 v4) slices_S16x49x256_o0_0_64_S16x49x32) (sl 64 (k0_pay5 v0 v4) slices_S16x49x256_o0_0_64_S16x49x32) b2)
    (headBlock (sl 96 (k0_pay3 v0 v4) slices_S16x49x256_o0_0_96_S16x49x32) (sl 96 (k0_pay4 v0 v4) slices_S16x49x256_o0_0_96_S16x49x32) (sl 96 (k0_pay5 v0 v4) slices_S16x49x256_o0_0_96_S16x49x32) b3)
    (headBlock (sl 128 (k0_pay3 v0 v4) slices_S16x49x256_o0_0_128_S16x49x32) (sl 128 (k0_pay4 v0 v4) slices_S16x49x256_o0_0_128_S16x49x32) (sl 128 (k0_pay5 v0 v4) slices_S16x49x256_o0_0_128_S16x49x32) b4)
    (headBlock (sl 160 (k0_pay3 v0 v4) slices_S16x49x256_o0_0_160_S16x49x32) (sl 160 (k0_pay4 v0 v4) slices_S16x49x256_o0_0_160_S16x49x32) (sl 160 (k0_pay5 v0 v4) slices_S16x49x256_o0_0_160_S16x49x32) b5)
    (headBlock (sl 192 (k0_pay3 v0 v4) slices_S16x49x256_o0_0_192_S16x49x32) (sl 192 (k0_pay4 v0 v4) slices_S16x49x256_o0_0_192_S16x49x32) (sl 192 (k0_pay5 v0 v4) slices_S16x49x256_o0_0_192_S16x49x32) b6)
    (headBlock (sl 224 (k0_pay3 v0 v4) slices_S16x49x256_o0_0_224_S16x49x32) (sl 224 (k0_pay4 v0 v4) slices_S16x49x256_o0_0_224_S16x49x32) (sl 224 (k0_pay5 v0 v4) slices_S16x49x256_o0_0_224_S16x49x32) b7)
    w

theorem out0_4_eq (x0 : Vec F S16x49x256 .f32) (x1 : Vec F S256x768 .bf16) (x2 : Vec F S256x256 .bf16) (x3 : Vec F S8x49x49 .f32) :
    out0_4 x0 x1 x2 x3
      = View.canon [⟨r0_0, bodyValue (View.ld x0 r0_0) (View.ld x1 r0_1) (View.ld x2 r0_10) (View.ld x3 r0_2) (View.ld x3 r0_3)
          (View.ld x3 r0_4) (View.ld x3 r0_5) (View.ld x3 r0_6) (View.ld x3 r0_7) (View.ld x3 r0_8) (View.ld x3 r0_9)⟩] := rfl

end Cert.KernelIdeal.KBlock

end
-- ==== Proof.KDots.lean ====
/-
  The kernel body's four matrix products, read at an index over the extended reals: into a zero accumulator each is
  the plain sum, over the one contracted axis, of the products of the operands' entries.  Per product, first where
  each operand index sits (batch and free coordinates come from the output index, the contracted coordinate from
  the summation index), then the sum itself re-indexed by that one coordinate.
-/
import proofs.«420347_j25786983645333_4_alg».proof.Proof.Gen.KernelIdeal
import Idealize.ShloMosaic.Lib.ValueIdx
import Idealize.ShloMosaic.PureOps.Ideal.Laws

noncomputable section

open scoped BigOperators

namespace Cert.KernelIdeal.KBlock

open Cert.KernelIdeal Cert.KernelIdeal.Gen Idealize.ShloMosaic Idealize.ShloMosaic.ValueIdx

theorem lhsA_0 (i : S784x768.Idx) (q : dot_S784x256_S256x768_S784x768_1_0_0_1_n_n.contr.Idx) :
    (dot_S784x256_S256x768_S784x768_1_0_0_1_n_n.lhsIdx i q 0).val = (i 0).val := by
  unfold DotDims.lhsIdx
  rw [dif_neg (show ¬(0 : Fin S784x256.rank) ∈ dot_S784x256_S256x768_S784x768_1_0_0_1_n_n.lhsBatch by decide), dif_pos (show (0 : Fin S784x256.rank) ∈ dot_S784x256_S256x768_S784x768_1_0_0_1_n_n.lhsNonContracting by decide)]
  rfl
theorem lhsA_1 (i : S784x768.Idx) (q : dot_S784x256_S256x768_S784x768_1_0_0_1_n_n.contr.Idx) :
    (dot_S784x256_S256x768_S784x768_1_0_0_1_n_n.lhsIdx i q 1).val = (q ⟨0, by decide⟩).val :=
  dot_S784x256_S256x768_S784x768_1_0_0_1_n_n.lhsIdx_val_of_single rfl i q
theorem rhsA_0 (i : S784x768.Idx) (q : dot_S784x256_S256x768_S784x768_1_0_0_1_n_n.contr.Idx) :
    (dot_S784x256_S256x768_S784x768_1_0_0_1_n_n.rhsIdx i q 0).val = (q ⟨0, by decide⟩).val :=
  dot_S784x256_S256x768_S784x768_1_0_0_1_n_n.rhsIdx_val_of_single rfl i q
theorem rhsA_1 (i : S784x768.Idx) (q : dot_S784x256_S256x768_S784x768_1_0_0_1_n_n.contr.Idx) :
    (dot_S784x256_S256x768_S784x768_1_0_0_1_n_n.rhsIdx i q 1).val = (i 1).val := by
  unfold DotDims.rhsIdx
  rw [dif_neg (show ¬(1 : Fin S256x768.rank) ∈ dot_S784x256_S256x768_S784x768_1_0_0_1_n_n.rhsBatch by decide), dif_pos (show (1 : Fin S256x768.rank) ∈ dot_S784x256_S256x768_S784x768_1_0_0_1_n_n.rhsNonContracting by decide)]
  rfl

theorem lhsB_0 (i : S16x49x49.Idx) (q : dot_S16x49x32_S16x49x32_S16x49x49_2_2_1_1_0_0.contr.Idx) :
    (dot_S16x49x32_S16x49x32_S16x49x49_2_2_1_1_0_0.lhsIdx i q 0).val = (i 0).val := by
  unfold DotDims.lhsIdx
  rw [dif_pos (show (0 : Fin S16x49x32.rank) ∈ dot_S16x49x32_S16x49x32_S16x49x49_2_2_1_1_0_0.lhsBatch by decide)]
  rfl
theorem lhsB_1 (i : S16x49x49.Idx) (q : dot_S16x49x32_S16x49x32_S16x49x49_2_2_1_1_0_0.contr.Idx) :
    (dot_S16x49x32_S16x49x32_S16x49x49_2_2_1_1_0_0.lhsIdx i q 1).val = (i 1).val := by
  unfold DotDims.lhsIdx
  rw [dif_neg (show ¬(1 : Fin S16x49x32.rank) ∈ dot_S16x49x32_S16x49x32_S16x49x49_2_2_1_1_0_0.lhsBatch by decide), dif_pos (show (1 : Fin S16x49x32.rank) ∈ dot_S16x49x32_S16x49x32_S16x49x49_2_2_1_1_0_0.lhsNonContracting by decide)]
  rfl
theorem lhsB_2 (i : S16x49x49.Idx) (q : dot_S16x49x32_S16x49x32_S16x49x49_2_2_1_1_0_0.contr.Idx) :
    (dot_S16x49x32_S16x49x32_S16x49x49_2_2_1_1_0_0.lhsIdx i q 2).val = (q ⟨0, by decide⟩).val :=
  dot_S16x49x32_S16x49x32_S16x49x49_2_2_1_1_0_0.lhsIdx_val_of_single rfl i q
theorem rhsB_0 (i : S16x49x49.Idx) (q : dot_S16x49x32_S16x49x32_S16x49x49_2_2_1_1_0_0.contr.Idx) :
    (dot_S16x49x32_S16x49x32_S16x49x49_2_2_1_1_0_0.rhsIdx i q 0).val = (i 0).val := by
  unfold DotDims.rhsIdx
  rw [dif_pos (show (0 : Fin S16x49x32.rank) ∈ dot_S16x49x32_S16x49x32_S16x49x49_2_2_1_1_0_0.rhsBatch by decide)]
  rfl
theorem rhsB_1 (i : S16x49x49.Idx) (q : dot_S16x49x32_S16x49x32_S16x49x49_2_2_1_1_0_0.contr.Idx) :
    (dot_S16x49x32_S16x49x32_S16x49x49_2_2_1_1_0_0.rhsIdx i q 1).val = (i 2).val := by
  unfold DotDims.rhsIdx
  rw [dif_neg (show ¬(1 : Fin S16x49x32.rank) ∈ dot_S16x49x32_S16x49x32_S16x49x49_2_2_1_1_0_0.rhsBatch by decide), dif_pos (show (1 : Fin S16x49x32.rank) ∈ dot_S16x49x32_S16x49x32_S16x49x49_2_2_1_1_0_0.rhsNonContracting by decide)]
  rfl
theorem rhsB_2 (i : S16x49x49.Idx) (q : dot_S16x49x32_S16x49x32_S16x49x49_2_2_1_1_0_0.contr.Idx) :
    (dot_S16x49x32_S16x49x32_S16x49x49_2_2_1_1_0_0.rhsIdx i q 2).val = (q ⟨0, by decide⟩).val :=
  dot_S16x49x32_S16x49x32_S16x49x49_2_2_1_1_0_0.rhsIdx_val_of_single rfl i q

theorem lhsC_0 (i : S16x49x32.Idx) (q : dot_S16x49x49_S16x49x32_S16x49x32_2_1_1_2_0_0.contr.Idx) :
    (dot_S16x49x49_S16x49x32_S16x49x32_2_1_1_2_0_0.lhsIdx i q 0).val = (i 0).val := by
  unfold DotDims.lhsIdx
  rw [dif_pos (show (0 : Fin S16x49x49.rank) ∈ dot_S16x49x49_S16x49x32_S16x49x32_2_1_1_2_0_0.lhsBatch by decide)]
  rfl
theorem lhsC_1 (i : S16x49x32.Idx) (q : dot_S16x49x49_S16x49x32_S16x49x32_2_1_1_2_0_0.contr.Idx) :
    (dot_S16x49x49_S16x49x32_S16x49x32_2_1_1_2_0_0.lhsIdx i q 1).val = (i 1).val := by
  unfold DotDims.lhsIdx
  rw [dif_neg (show ¬(1 : Fin S16x49x49.rank) ∈ dot_S16x49x49_S16x49x32_S16x49x32_2_1_1_2_0_0.lhsBatch by decide), dif_pos (show (1 : Fin S16x49x49.rank) ∈ dot_S16x49x49_S16x49x32_S16x49x32_2_1_1_2_0_0.lhsNonContracting by decide)]
  rfl
theorem lhsC_2 (i : S16x49x32.Idx) (q : dot_S16x49x49_S16x49x32_S16x49x32_2_1_1_2_0_0.contr.Idx) :
    (dot_S16x49x49_S16x49x32_S16x49x32_2_1_1_2_0_0.lhsIdx i q 2).val = (q ⟨0, by decide⟩).val :=
  dot_S16x49x49_S16x49x32_S16x49x32_2_1_1_2_0_0.lhsIdx_val_of_single rfl i q
theorem rhsC_0 (i : S16x49x32.Idx) (q : dot_S16x49x49_S16x49x32_S16x49x32_2_1_1_2_0_0.contr.Idx) :
    (dot_S16x49x49_S16x49x32_S16x49x32_2_1_1_2_0_0.rhsIdx i q 0).val = (i 0).val := by
  unfold DotDims.rhsIdx
  rw [dif_pos (show (0 : Fin S16x49x32.rank) ∈ dot_S16x49x49_S16x49x32_S16x49x32_2_1_1_2_0_0.rhsBatch by decide)]
  rfl
theorem rhsC_1 (i : S16x49x32.Idx) (q : dot_S16x49x49_S16x49x32_S16x49x32_2_1_1_2_0_0.contr.Idx) :
    (dot_S16x49x49_S16x49x32_S16x49x32_2_1_1_2_0_0.rhsIdx i q 1).val = (q ⟨0, by decide⟩).val :=
  dot_S16x49x49_S16x49x32_S16x49x32_2_1_1_2_0_0.rhsIdx_val_of_single rfl i q
theorem rhsC_2 (i : S16x49x32.Idx) (q : dot_S16x49x49_S16x49x32_S16x49x32_2_1_1_2_0_0.contr.Idx) :
    (dot_S16x49x49_S16x49x32_S16x49x32_2_1_1_2_0_0.rhsIdx i q 2).val = (i 2).val := by
  unfold DotDims.rhsIdx
  rw [dif_neg (show ¬(2 : Fin S16x49x32.rank) ∈ dot_S16x49x49_S16x49x32_S16x49x32_2_1_1_2_0_0.rhsBatch by decide), dif_pos (show (2 : Fin S16x49x32.rank) ∈ dot_S16x49x49_S16x49x32_S16x49x32_2_1_1_2_0_0.rhsNonContracting by decide)]
  rfl

theorem lhsD_0 (i : S784x256.Idx) (q : dot_S784x256_S256x256_S784x256_1_0_0_1_n_n.contr.Idx) :
    (dot_S784x256_S256x256_S784x256_1_0_0_1_n_n.lhsIdx i q 0).val = (i 0).val := by
  unfold DotDims.lhsIdx
  rw [dif_neg (show ¬(0 : Fin S784x256.rank) ∈ dot_S784x256_S256x256_S784x256_1_0_0_1_n_n.lhsBatch by decide), dif_pos (show (0 : Fin S784x256.rank) ∈ dot_S784x256_S256x256_S784x256_1_0_0_1_n_n.lhsNonContracting by decide)]
  rfl
theorem lhsD_1 (i : S784x256.Idx) (q : dot_S784x256_S256x256_S784x256_1_0_0_1_n_n.contr.Idx) :
    (dot_S784x256_S256x256_S784x256_1_0_0_1_n_n.lhsIdx i q 1).val = (q ⟨0, by decide⟩).val :=
  dot_S784x256_S256x256_S784x256_1_0_0_1_n_n.lhsIdx_val_of_single rfl i q
theorem rhsD_0 (i : S784x256.Idx) (q : dot_S784x256_S256x256_S784x256_1_0_0_1_n_n.contr.Idx) :
    (dot_S784x256_S256x256_S784x256_1_0_0_1_n_n.rhsIdx i q 0).val = (q ⟨0, by decide⟩).val :=
  dot_S784x256_S256x256_S784x256_1_0_0_1_n_n.rhsIdx_val_of_single rfl i q
theorem rhsD_1 (i : S784x256.Idx) (q : dot_S784x256_S256x256_S784x256_1_0_0_1_n_n.contr.Idx) :
    (dot_S784x256_S256x256_S784x256_1_0_0_1_n_n.rhsIdx i q 1).val = (i 1).val := by
  unfold DotDims.rhsIdx
  rw [dif_neg (show ¬(1 : Fin S256x256.rank) ∈ dot_S784x256_S256x256_S784x256_1_0_0_1_n_n.rhsBatch by decide), dif_pos (show (1 : Fin S256x256.rank) ∈ dot_S784x256_S256x256_S784x256_1_0_0_1_n_n.rhsNonContracting by decide)]
  rfl

/-- The token-by-column projection product: entry (p, e) sums, over the 256 input channels, row p of the left
    operand against column e of the right. -/
theorem mmA_apply {φ₁ φ₂ : FTy} (l : FVec Ideal S784x256 φ₁) (r : FVec Ideal S256x768 φ₂) (p : Fin 784) (e : Fin 768) :
    matmul dot_S784x256_S256x768_S784x768_1_0_0_1_n_n none l r (constant S784x768 .f32 0x00000000#32) (ix2 p e)
      = ∑ k : Fin 256, l (ix2 p k) * r (ix2 k e) := by
  simp only [matmul]
  rw [Ideal.matmul_constant_zero_apply, ← Equiv.sum_comp (contrEquiv1 dot_S784x256_S256x768_S784x768_1_0_0_1_n_n 256 rfl rfl).symm]
  refine Finset.sum_congr rfl fun k _ => ?_
  have hk := contrEquiv1_symm_val dot_S784x256_S256x768_S784x768_1_0_0_1_n_n 256 rfl rfl k
  have el : dot_S784x256_S256x768_S784x768_1_0_0_1_n_n.lhsIdx (ix2 p e) ((contrEquiv1 dot_S784x256_S256x768_S784x768_1_0_0_1_n_n 256 rfl rfl).symm k) = ix2 p k := funext fun a => Fin.ext (by
    match a with
    | ⟨0, _⟩ => exact lhsA_0 _ _
    | ⟨1, _⟩ => exact (lhsA_1 _ _).trans hk)
  have er : dot_S784x256_S256x768_S784x768_1_0_0_1_n_n.rhsIdx (ix2 p e) ((contrEquiv1 dot_S784x256_S256x768_S784x768_1_0_0_1_n_n 256 rfl rfl).symm k) = ix2 k e := funext fun a => Fin.ext (by
    match a with
    | ⟨0, _⟩ => exact (rhsA_0 _ _).trans hk
    | ⟨1, _⟩ => exact rhsA_1 _ _)
  rw [el, er]

/-- A head's score product: for window b, entry (i, j) sums, over the head's 32 columns, query row i against key
    row j. -/
theorem mmB_apply {φ₁ φ₂ : FTy} (l : FVec Ideal S16x49x32 φ₁) (r : FVec Ideal S16x49x32 φ₂) (b : Fin 16) (i j : Fin 49) :
    matmul dot_S16x49x32_S16x49x32_S16x49x49_2_2_1_1_0_0 none l r (constant S16x49x49 .f32 0x00000000#32) (ix3 b i j)
      = ∑ k : Fin 32, l (ix3 b i k) * r (ix3 b j k) := by
  simp only [matmul]
  rw [Ideal.matmul_constant_zero_apply, ← Equiv.sum_comp (contrEquiv1 dot_S16x49x32_S16x49x32_S16x49x49_2_2_1_1_0_0 32 rfl rfl).symm]
  refine Finset.sum_congr rfl fun k _ => ?_
  have hk := contrEquiv1_symm_val dot_S16x49x32_S16x49x32_S16x49x49_2_2_1_1_0_0 32 rfl rfl k
  have el : dot_S16x49x32_S16x49x32_S16x49x49_2_2_1_1_0_0.lhsIdx (ix3 b i j) ((contrEquiv1 dot_S16x49x32_S16x49x32_S16x49x49_2_2_1_1_0_0 32 rfl rfl).symm k) = ix3 b i k := funext fun a => Fin.ext (by
    match a with
    | ⟨0, _⟩ => exact lhsB_0 _ _
    | ⟨1, _⟩ => exact lhsB_1 _ _
    | ⟨2, _⟩ => exact (lhsB_2 _ _).trans hk)
  have er : dot_S16x49x32_S16x49x32_S16x49x49_2_2_1_1_0_0.rhsIdx (ix3 b i j) ((contrEquiv1 dot_S16x49x32_S16x49x32_S16x49x49_2_2_1_1_0_0 32 rfl rfl).symm k) = ix3 b j k := funext fun a => Fin.ext (by
    match a with
    | ⟨0, _⟩ => exact rhsB_0 _ _
    | ⟨1, _⟩ => exact rhsB_1 _ _
    | ⟨2, _⟩ => exact (rhsB_2 _ _).trans hk)
  rw [el, er]

/-- A head's weighted sum of values: for window b, entry (i, d) sums, over the 49 tokens, weight (i, j) against value
    row j at column d. -/
theorem mmC_apply {φ₁ φ₂ : FTy} (l : FVec Ideal S16x49x49 φ₁) (r : FVec Ideal S16x49x32 φ₂) (b : Fin 16) (i : Fin 49) (d : Fin 32) :
    matmul dot_S16x49x49_S16x49x32_S16x49x32_2_1_1_2_0_0 none l r (constant S16x49x32 .f32 0x00000000#32) (ix3 b i d)
      = ∑ k : Fin 49, l (ix3 b i k) * r (ix3 b k d) := by
  simp only [matmul]
  rw [Ideal.matmul_constant_zero_apply, ← Equiv.sum_comp (contrEquiv1 dot_S16x49x49_S16x49x32_S16x49x32_2_1_1_2_0_0 49 rfl rfl).symm]
  refine Finset.sum_congr rfl fun k _ => ?_
  have hk := contrEquiv1_symm_val dot_S16x49x49_S16x49x32_S16x49x32_2_1_1_2_0_0 49 rfl rfl k
  have el : dot_S16x49x49_S16x49x32_S16x49x32_2_1_1_2_0_0.lhsIdx (ix3 b i d) ((contrEquiv1 dot_S16x49x49_S16x49x32_S16x49x32_2_1_1_2_0_0 49 rfl rfl).symm k) = ix3 b i k := funext fun a => Fin.ext (by
    match a with
    | ⟨0, _⟩ => exact lhsC_0 _ _
    | ⟨1, _⟩ => exact lhsC_1 _ _
    | ⟨2, _⟩ => exact (lhsC_2 _ _).trans hk)
  have er : dot_S16x49x49_S16x49x32_S16x49x32_2_1_1_2_0_0.rhsIdx (ix3 b i d) ((contrEquiv1 dot_S16x49x49_S16x49x32_S16x49x32_2_1_1_2_0_0 49 rfl rfl).symm k) = ix3 b k d := funext fun a => Fin.ext (by
    match a with
    | ⟨0, _⟩ => exact rhsC_0 _ _
    | ⟨1, _⟩ => exact (rhsC_1 _ _).trans hk
    | ⟨2, _⟩ => exact rhsC_2 _ _)
  rw [el, er]

/-- The output projection product: entry (p, e) sums, over the 256 concatenated head columns, row p of the left
    operand against column e of the right. -/
theorem mmD_apply {φ₁ φ₂ : FTy} (l : FVec Ideal S784x256 φ₁) (r : FVec Ideal S256x256 φ₂) (p : Fin 784) (e : Fin 256) :
    matmul dot_S784x256_S256x256_S784x256_1_0_0_1_n_n none l r (constant S784x256 .f32 0x00000000#32) (ix2 p e)
      = ∑ k : Fin 256, l (ix2 p k) * r (ix2 k e) := by
  simp only [matmul]
  rw [Ideal.matmul_constant_zero_apply, ← Equiv.sum_comp (contrEquiv1 dot_S784x256_S256x256_S784x256_1_0_0_1_n_n 256 rfl rfl).symm]
  refine Finset.sum_congr rfl fun k _ => ?_
  have hk := contrEquiv1_symm_val dot_S784x256_S256x256_S784x256_1_0_0_1_n_n 256 rfl rfl k
  have el : dot_S784x256_S256x256_S784x256_1_0_0_1_n_n.lhsIdx (ix2 p e) ((contrEquiv1 dot_S784x256_S256x256_S784x256_1_0_0_1_n_n 256 rfl rfl).symm k) = ix2 p k := funext fun a => Fin.ext (by
    match a with
    | ⟨0, _⟩ => exact lhsD_0 _ _
    | ⟨1, _⟩ => exact (lhsD_1 _ _).trans hk)
  have er : dot_S784x256_S256x256_S784x256_1_0_0_1_n_n.rhsIdx (ix2 p e) ((contrEquiv1 dot_S784x256_S256x256_S784x256_1_0_0_1_n_n 256 rfl rfl).symm k) = ix2 k e := funext fun a => Fin.ext (by
    match a with
    | ⟨0, _⟩ => exact (rhsD_0 _ _).trans hk
    | ⟨1, _⟩ => exact rhsD_1 _ _)
  rw [el, er]

end Cert.KernelIdeal.KBlock

end
-- ==== Proof.Spec.lean ====
/-
  Windowed multi-head attention with a relative-position bias, for ONE window of 49 tokens, as a function on the
  extended reals.  A window `xw : 49 × 256` is projected by `wq : 768 × 256` to queries, keys and values (the three
  256-wide column groups of the projection); head `h` (of 8) owns the 32 columns `32 h … 32 h + 31` of each
  group.  For head `h` the score of tokens `i, j` is the dot product over the head's 32 columns of the scaled
  query of `i` with the key of `j`, plus the bias `bi h i j`; each row of scores is normalised by a softmax (the
  row maximum subtracted, exponentials, division by their sum); the head's output is the attention-weighted sum of
  the values; the heads' outputs sit side by side in 256 columns and are projected by `wo : 256 × 256`.
  Nothing here mentions a program: both the kernel and the reference are shown to compute `winSpec`.
-/
import Idealize.ShloMosaic.PureOps.Ideal
import Idealize.ShloMosaic.Lib.ValueIdx

noncomputable section

open scoped BigOperators

namespace Cert.WinAttn

open Idealize.ShloMosaic

/-- The softmax scale `32^(-1/2)` as the f32 word both programs multiply the queries by. -/
abbrev sc : EReal := Ideal.ofBits .f32 0x3E3504F3#32

/-- The value every row maximum starts from: the f32 word of `-∞`. -/
abbrev negInf : EReal := Ideal.ofBits .f32 0xFF800000#32

/-- Column `32 h + d` of the query group. -/
def qcol (h : Fin 8) (d : Fin 32) : Fin 768 := ⟨32 * h.val + d.val, by omega⟩
/-- Column `32 h + d` of the key group. -/
def kcol (h : Fin 8) (d : Fin 32) : Fin 768 := ⟨256 + (32 * h.val + d.val), by omega⟩
/-- Column `32 h + d` of the value group. -/
def vcol (h : Fin 8) (d : Fin 32) : Fin 768 := ⟨512 + (32 * h.val + d.val), by omega⟩

/-- The head that owns output column `c`, and the column's place inside the head. -/
def headOf (c : Fin 256) : Fin 8 := ⟨c.val / 32, by omega⟩
def inHead (c : Fin 256) : Fin 32 := ⟨c.val % 32, Nat.mod_lt _ (by decide)⟩

section
variable (xw : Fin 49 → Fin 256 → EReal) (wq : Fin 768 → Fin 256 → EReal) (wo : Fin 256 → Fin 256 → EReal)
  (bi : Fin 8 → Fin 49 → Fin 49 → EReal)

/-- Token `n` projected onto column `e` of the joint query/key/value projection. -/
def proj (n : Fin 49) (e : Fin 768) : EReal := ∑ d : Fin 256, xw n d * wq e d

/-- The biased score of tokens `i`, `j` in head `h`. -/
def sim (h : Fin 8) (i j : Fin 49) : EReal :=
  (∑ d : Fin 32, (proj xw wq i (qcol h d) * sc) * proj xw wq j (kcol h d)) + bi h i j

/-- The maximum of a row of scores. -/
def rowMax (f : Fin 49 → EReal) : EReal := (Finset.univ : Finset (Fin 49)).fold max negInf f

/-- The exponential of a score after the row maximum is subtracted. -/
def expo (f : Fin 49 → EReal) (j : Fin 49) : EReal := Ideal.exp (f j - rowMax f)

/-- The softmax weight of column `j` in a row of scores. -/
def attn (f : Fin 49 → EReal) (j : Fin 49) : EReal := Ideal.div (expo f j) (∑ k : Fin 49, expo f k)

/-- Head `h`'s output for token `i`, column `d` of the head. -/
def headOut (h : Fin 8) (i : Fin 49) (d : Fin 32) : EReal :=
  ∑ j : Fin 49, attn (sim xw wq bi h i) j * proj xw wq j (vcol h d)

/-- The window's result: the heads' outputs, side by side, projected by `wo`. -/
def winSpec (n : Fin 49) (e : Fin 256) : EReal :=
  ∑ c : Fin 256, headOut xw wq bi (headOf c) n (inHead c) * wo e c

end

end Cert.WinAttn

end
-- ==== Proof.KHead.lean ====
/-
  One attention head on a block of 16 windows, read at an index over the extended reals.  Reading the layout
  operations one at a time (a slice shifts the column, a repeated slab forgets the window, a row statistic kept as
  a unit column and repeated along the row reads the row), the head's output at window `w`, token `i`, column `d`
  is the softmax-weighted sum over tokens `j` of the value entries, the softmax taken over row `i` of the biased
  scores: exactly `headOut` of the window's tokens, the joint projection weights and the bias.
-/
import proofs.«420347_j25786983645333_4_alg».proof.Proof.Gen.KernelIdeal.Frame
import proofs.«420347_j25786983645333_4_alg».proof.Proof.KDefs
import proofs.«420347_j25786983645333_4_alg».proof.Proof.KDots
import proofs.«420347_j25786983645333_4_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.KBlock

open Cert.KernelIdeal Cert.KernelIdeal.Gen Idealize.ShloMosaic Idealize.ShloMosaic.ValueIdx Cert.WinAttn

/-! ## The layout operations of a head -/

/-- A 32-column slice starting at column `o` reads column `o + d`. -/
theorem sl_apply (o : Nat) (x : FVec Ideal S16x49x256 .bf16) (h : S16x49x256.Slices ![0, 0, o] S16x49x32) (ho : o + 32 ≤ 256)
    (w : Fin 16) (i : Fin 49) (d : Fin 32) : sl o x h (ix3 w i d) = x (ix3 w i ⟨o + d.val, by omega⟩) := by
  unfold sl
  refine extractStridedSlice_apply _ x h (ix3 w i d) (ix3 w i ⟨o + d.val, by omega⟩) fun a => ?_
  match a with
  | ⟨0, _⟩ => show w.val = 0 + w.val; omega
  | ⟨1, _⟩ => show i.val = 0 + i.val; omega
  | ⟨2, _⟩ => rfl

/-- The bias slab repeated over the windows reads the slab. -/
theorem biasAll_apply (b : Vec Ideal S1x49x49 .f32) (w : Fin 16) (i j : Fin 49) : biasAll b (ix3 w i j) = b (ix3 0 i j) := by
  unfold biasAll
  refine (broadcastTo_apply _ broadcasts_S1x49x49_S16x49x49 (ix3 w i j) (ix3 0 i j) fun a => ?_).trans ?_
  · match a with
    | ⟨0, _⟩ => rfl
    | ⟨1, _⟩ => rfl
    | ⟨2, _⟩ => rfl
  · rw [shapeCast_shapeCast]

/-- The lane reduction's inserted index: row `(w, i)` with column `k`. -/
theorem lift_row (w : Fin 16) (i : Fin 49) (k : Fin 49) :
    reduces_S16x49x49_S16x49.lift (ix2 w i) k = ix3 w i k :=
  funext fun a => Fin.ext (by
    match a with
    | ⟨0, _⟩ => rfl
    | ⟨1, _⟩ => rfl
    | ⟨2, _⟩ => rfl)

/-- A row statistic kept as a unit column and repeated along the row reads the statistic of the row. -/
theorem keepRow_apply (r : FVec Ideal S16x49 .f32) (w : Fin 16) (i j : Fin 49) :
    broadcastTo S16x49x49 (shapeCast S16x49x1 r shapeCasts_S16x49_S16x49x1) broadcasts_S16x49x1_S16x49x49 (ix3 w i j)
      = r (ix2 w i) := by
  refine (broadcastTo_apply _ broadcasts_S16x49x1_S16x49x49 (ix3 w i j) (ix3 w i 0) fun a => ?_).trans ?_
  · match a with
    | ⟨0, _⟩ => rfl
    | ⟨1, _⟩ => rfl
    | ⟨2, _⟩ => rfl
  · refine shapeCast_apply _ shapeCasts_S16x49_S16x49x1 (ix3 w i 0) (ix2 w i) ?_
    rw [Shape.rowMajor_val_two, Shape.rowMajor_val_three]
    show w.val * 49 + i.val = (w.val * 49 + i.val) * 1 + 0
    omega

/-- Each row's sum. -/
theorem rowSumAll_apply (p : FVec Ideal S16x49x49 .f32) (w : Fin 16) (i j : Fin 49) :
    rowSumAll p (ix3 w i j) = ∑ k : Fin 49, p (ix3 w i k) := by
  unfold rowSumAll
  rw [keepRow_apply]
  refine (Ideal.multiReduction_add_single p 0x00000000#32 reduces_S16x49x49_S16x49 (.inl rfl) rfl (ix2 w i)).trans ?_
  exact Finset.sum_congr rfl fun k _ => congrArg p (lift_row w i k)

/-- Each row's maximum. -/
theorem rowMaxAll_apply (s : FVec Ideal S16x49x49 .f32) (w : Fin 16) (i j : Fin 49) :
    rowMaxAll s (ix3 w i j) = rowMax fun k => s (ix3 w i k) := by
  unfold rowMaxAll
  rw [keepRow_apply]
  refine (Ideal.multiReduction_maximumf_single s 0xFF800000#32 reduces_S16x49x49_S16x49 (.inl rfl) rfl (ix2 w i)).trans ?_
  show Finset.fold max negInf (s ∘ reduces_S16x49x49_S16x49.lift (ix2 w i)) Finset.univ = Finset.fold max negInf (fun k => s (ix3 w i k)) Finset.univ
  exact congrArg (fun f => Finset.fold max negInf f Finset.univ) (funext fun k => congrArg s (lift_row w i k))

/-- The exponentials of a row less its maximum. -/
theorem expAll_apply (s : FVec Ideal S16x49x49 .f32) (w : Fin 16) (i j : Fin 49) :
    expAll s (ix3 w i j) = expo (fun k => s (ix3 w i k)) j := by
  unfold expAll expo
  show Ideal.exp (s (ix3 w i j) - rowMaxAll s (ix3 w i j)) = _
  rw [rowMaxAll_apply]

/-- The softmax weights of a row. -/
theorem weights_expAll_apply (s : FVec Ideal S16x49x49 .f32) (w : Fin 16) (i j : Fin 49) :
    weights (expAll s) (ix3 w i j) = attn (fun k => s (ix3 w i k)) j := by
  unfold weights attn
  show Ideal.div (expAll s (ix3 w i j)) (rowSumAll (expAll s) (ix3 w i j)) = _
  rw [rowSumAll_apply, expAll_apply]
  exact congrArg (Ideal.div _) (Finset.sum_congr rfl fun k _ => expAll_apply s w i k)

/-- One head: the softmax of the biased scores' row against the values. -/
theorem headBlock_apply (q k v : FVec Ideal S16x49x32 .bf16) (b : Vec Ideal S1x49x49 .f32) (w : Fin 16) (i : Fin 49) (d : Fin 32) :
    headBlock q k v b (ix3 w i d)
      = ∑ j : Fin 49, attn (fun j' => (∑ c : Fin 32, q (ix3 w i c) * k (ix3 w j' c)) + b (ix3 0 i j')) j * v (ix3 w j d) := by
  unfold headBlock mix
  rw [truncf_apply, mmC_apply]
  refine Finset.sum_congr rfl fun j _ => ?_
  rw [weights_expAll_apply]
  refine congrArg (fun f => attn f j * v (ix3 w j d)) (funext fun j' => ?_)
  rw [addf_apply, biasAll_apply]
  unfold scores
  rw [mmB_apply]

/-! ## The projections the heads slice -/

section
variable (v0 : Vec Ideal S16x49x256 .f32) (v4 : Vec Ideal S256x768 .bf16) (w : Fin 16)

/-- The joint query/key/value projection of the block: window `w`, token `n`, column `e`. -/
theorem pay2_apply (n : Fin 49) (e : Fin 768) :
    k0_pay2 v0 v4 (ix3 w n e) = proj (fun n c => v0 (ix3 w n c)) (fun e c => v4 (ix2 c e)) n e := by
  simp only [k0_pay2]
  refine (shapeCast_apply _ shapeCasts_S784x768_S16x49x768 (ix3 w n e) (ix2 ⟨w.val * 49 + n.val, by omega⟩ e) ?_).trans ?_
  · rw [Shape.rowMajor_val_two, Shape.rowMajor_val_three]
    rfl
  rw [mmA_apply]
  unfold proj
  refine Finset.sum_congr rfl fun c _ => ?_
  congr 1
  · refine (shapeCast_apply _ shapeCasts_S16x49x256_S784x256 (ix2 ⟨w.val * 49 + n.val, by omega⟩ c) (ix3 w n c) ?_).trans ?_
    · rw [Shape.rowMajor_val_two, Shape.rowMajor_val_three]
      rfl
    · rw [truncf_apply, shapeCast_self]
  · rw [shapeCast_self]

/-- The scaled queries. -/
theorem pay3_apply (n : Fin 49) (c : Fin 256) :
    k0_pay3 v0 v4 (ix3 w n c) = proj (fun n c => v0 (ix3 w n c)) (fun e c => v4 (ix2 c e)) n ⟨c.val, by omega⟩ * sc := by
  simp only [k0_pay3]
  rw [truncf_apply, mulf_apply, broadcast_apply, ← pay2_apply]
  refine congrArg (· * sc) ?_
  refine extractStridedSlice_apply _ _ slices_S16x49x768_o0_0_0_S16x49x256 (ix3 w n c) (ix3 w n ⟨c.val, by omega⟩) fun a => ?_
  match a with
  | ⟨0, _⟩ => show w.val = 0 + w.val; omega
  | ⟨1, _⟩ => show n.val = 0 + n.val; omega
  | ⟨2, _⟩ => show c.val = 0 + c.val; omega

/-- The keys. -/
theorem pay4_apply (n : Fin 49) (c : Fin 256) :
    k0_pay4 v0 v4 (ix3 w n c) = proj (fun n c => v0 (ix3 w n c)) (fun e c => v4 (ix2 c e)) n ⟨256 + c.val, by omega⟩ := by
  simp only [k0_pay4]
  rw [truncf_apply, ← pay2_apply]
  refine extractStridedSlice_apply _ _ slices_S16x49x768_o0_0_256_S16x49x256 (ix3 w n c) (ix3 w n ⟨256 + c.val, by omega⟩) fun a => ?_
  match a with
  | ⟨0, _⟩ => show w.val = 0 + w.val; omega
  | ⟨1, _⟩ => show n.val = 0 + n.val; omega
  | ⟨2, _⟩ => rfl

/-- The values. -/
theorem pay5_apply (n : Fin 49) (c : Fin 256) :
    k0_pay5 v0 v4 (ix3 w n c) = proj (fun n c => v0 (ix3 w n c)) (fun e c => v4 (ix2 c e)) n ⟨512 + c.val, by omega⟩ := by
  simp only [k0_pay5]
  rw [truncf_apply, ← pay2_apply]
  refine extractStridedSlice_apply _ _ slices_S16x49x768_o0_0_512_S16x49x256 (ix3 w n c) (ix3 w n ⟨512 + c.val, by omega⟩) fun a => ?_
  match a with
  | ⟨0, _⟩ => show w.val = 0 + w.val; omega
  | ⟨1, _⟩ => show n.val = 0 + n.val; omega
  | ⟨2, _⟩ => rfl

end

/-- Slab `h` of the bias table, loaded as a [1, 49, 49] block. -/
theorem ld_bias (x3 : Vec Ideal S8x49x49 .f32) (h : Fin 8)
    (inb : ∀ a, (![h.val, 0, 0] : Fin 3 → Nat) a + S1x49x49.size a ≤ S8x49x49.size a) (i j : Fin 49) :
    (View.ld x3 (Rect.unit (s := S8x49x49) ![h.val, 0, 0] S1x49x49.size inb) : Vec Ideal S1x49x49 .f32) (ix3 0 i j) = x3 (ix3 h i j) := by
  show x3 ((Rect.unit (s := S8x49x49) ![h.val, 0, 0] S1x49x49.size inb).idx (ix3 0 i j)) = _
  refine congrArg x3 (funext fun a => Fin.ext ?_)
  match a with
  | ⟨0, _⟩ => show h.val + 1 * 0 = h.val; omega
  | ⟨1, _⟩ => show 0 + 1 * i.val = i.val; omega
  | ⟨2, _⟩ => show 0 + 1 * j.val = j.val; omega

/-- Head `h` of the block, on columns `32 h … 32 h + 31` and slab `h`, is `headOut` of window `w`. -/
theorem head_apply (v0 : Vec Ideal S16x49x256 .f32) (v4 : Vec Ideal S256x768 .bf16) (x3 : Vec Ideal S8x49x49 .f32)
    (h : Fin 8) (hs : S16x49x256.Slices ![0, 0, 32 * h.val] S16x49x32)
    (inb : ∀ a, (![h.val, 0, 0] : Fin 3 → Nat) a + S1x49x49.size a ≤ S8x49x49.size a)
    (w : Fin 16) (i : Fin 49) (d : Fin 32) :
    headBlock (sl (32 * h.val) (k0_pay3 v0 v4) hs) (sl (32 * h.val) (k0_pay4 v0 v4) hs) (sl (32 * h.val) (k0_pay5 v0 v4) hs)
        (View.ld x3 (Rect.unit (s := S8x49x49) ![h.val, 0, 0] S1x49x49.size inb)) (ix3 w i d)
      = headOut (fun n c => v0 (ix3 w n c)) (fun e c => v4 (ix2 c e)) (fun h' p q => x3 (ix3 h' p q)) h i d := by
  have hb : 32 * h.val + 32 ≤ 256 := by have := h.isLt; omega
  rw [headBlock_apply]
  unfold headOut
  refine Finset.sum_congr rfl fun j _ => ?_
  rw [sl_apply _ _ _ hb, pay5_apply]
  refine congrArg (fun f => attn f j * _) (funext fun j' => ?_)
  unfold sim
  rw [ld_bias]
  refine congrArg (· + x3 (ix3 h i j')) (Finset.sum_congr rfl fun c _ => ?_)
  rw [sl_apply _ _ _ hb, sl_apply _ _ _ hb, pay3_apply, pay4_apply]
  rfl

end Cert.KernelIdeal.KBlock

end
-- ==== Proof.KBlock.lean ====
/-
  The kernel body's stored block, read at an index, is the window function `winSpec` of the body's four input blocks:
  the block of 16 windows `x0`, the joint projection weights `x1` and the output weights `x2` (both stored
  transposed), and the bias table `x3`.  The stored value is the output projection of the eight heads laid side by
  side; column `c` of the concatenation belongs to head `c / 32` at its column `c % 32`, and each head is `headOut`.
-/
import proofs.«420347_j25786983645333_4_alg».proof.Proof.Gen.KernelIdeal.Frame
import proofs.«420347_j25786983645333_4_alg».proof.Proof.KPay
import proofs.«420347_j25786983645333_4_alg».proof.Proof.KHead
import proofs.«420347_j25786983645333_4_alg».proof.Proof.Spec
import Idealize.ShloMosaic.Lib.Pipeline.Value

noncomputable section

open scoped BigOperators

namespace Cert.KernelIdeal.KBlock

open Cert.KernelIdeal Cert.KernelIdeal.Gen Idealize.ShloMosaic Idealize.ShloMosaic.ValueIdx Cert.WinAttn

/-- The output projection at window `w`, token `n`, column `e`: over the 256 concatenated columns, head `c / 32`'s
    entry at its column `c % 32` against the output weight. -/
theorem projOut_apply (hs : Fin 8 → FVec Ideal S16x49x32 .bf16) (wv : Vec Ideal S256x256 .bf16) (w : Fin 16) (n : Fin 49) (e : Fin 256) :
    projOut (hs 0) (hs 1) (hs 2) (hs 3) (hs 4) (hs 5) (hs 6) (hs 7) wv (ix3 w n e)
      = ∑ c : Fin 256, hs (headOf c) (ix3 w n (inHead c)) * wv (ix2 c e) := by
  unfold projOut
  refine (shapeCast_apply _ shapeCasts_S784x256_S16x49x256 (ix3 w n e) (ix2 ⟨w.val * 49 + n.val, by omega⟩ e) ?_).trans ?_
  · rw [Shape.rowMajor_val_two, Shape.rowMajor_val_three]
    rfl
  rw [mmD_apply]
  refine Finset.sum_congr rfl fun c _ => ?_
  congr 1
  · refine (shapeCast_apply _ shapeCasts_S16x49x256_S784x256 (ix2 ⟨w.val * 49 + n.val, by omega⟩ c) (ix3 w n c) ?_).trans ?_
    · rw [Shape.rowMajor_val_two, Shape.rowMajor_val_three]
      rfl
    · show concatenate S16x49x256 2 (List.ofFn fun k : Fin 8 => (⟨S16x49x32, hs k⟩ : (s : Shape) × (s.Idx → Ideal .bf16)))
          concatenates_S16x49x32_S16x49x32_S16x49x32_S16x49x32_S16x49x32_S16x49x32_S16x49x32_S16x49x32_S16x49x256_d2 (ix3 w n c) = _
      refine concatenate_ofFn_apply (t := S16x49x256) (s₁ := S16x49x32) 2 (fun k => hs k) _ rfl 32 rfl (ix3 w n c) (headOf c) rfl (ix3 w n (inHead c)) rfl fun b hb => ?_
      match b with
      | ⟨0, _⟩ => rfl
      | ⟨1, _⟩ => rfl
      | ⟨2, _⟩ => exact absurd rfl hb
  · rw [shapeCast_self]

theorem out_apply (x0 : Vec Ideal S16x49x256 .f32) (x1 : Vec Ideal S256x768 .bf16) (x2 : Vec Ideal S256x256 .bf16)
    (x3 : Vec Ideal S8x49x49 .f32) (bb : Fin 16) (n : Fin 49) (e : Fin 256) :
    out0_4 (F := Ideal) x0 x1 x2 x3 (ix3 bb n e)
      = winSpec (fun n d => x0 (ix3 bb n d)) (fun e d => x1 (ix2 d e)) (fun e c => x2 (ix2 c e))
          (fun h i j => x3 (ix3 h i j)) n e := by
  have hz3 : (![0, 0, 0] : Fin 3 → Nat) = fun _ => 0 := funext fun a => by
    match a with
    | ⟨0, _⟩ => rfl
    | ⟨1, _⟩ => rfl
    | ⟨2, _⟩ => rfl
  have hz2 : (![0, 0] : Fin 2 → Nat) = fun _ => 0 := funext fun a => by
    match a with
    | ⟨0, _⟩ => rfl
    | ⟨1, _⟩ => rfl
  rw [out0_4_eq, View.canon_unit_zero hz3]
  have e0 : View.ld x0 r0_0 = x0 := View.ld_unit_zero hz3 _ x0
  have e1 : View.ld x1 r0_1 = x1 := View.ld_unit_zero hz2 _ x1
  have e2 : View.ld x2 r0_10 = x2 := View.ld_unit_zero hz2 _ x2
  rw [e0, e1, e2]
  unfold bodyValue
  -- the eight heads as one family
  let v0 := x0
  let v4 := x1
  let HS : Fin 8 → FVec Ideal S16x49x32 .bf16 := fun
    | 0 => headBlock (sl 0 (k0_pay3 v0 v4) slices_S16x49x256_o0_0_0_S16x49x32) (sl 0 (k0_pay4 v0 v4) slices_S16x49x256_o0_0_0_S16x49x32) (sl 0 (k0_pay5 v0 v4) slices_S16x49x256_o0_0_0_S16x49x32) (View.ld x3 r0_2)
    | 1 => headBlock (sl 32 (k0_pay3 v0 v4) slices_S16x49x256_o0_0_32_S16x49x32) (sl 32 (k0_pay4 v0 v4) slices_S16x49x256_o0_0_32_S16x49x32) (sl 32 (k0_pay5 v0 v4) slices_S16x49x256_o0_0_32_S16x49x32) (View.ld x3 r0_3)
    | 2 => headBlock (sl 64 (k0_pay3 v0 v4) slices_S16x49x256_o0_0_64_S16x49x32) (sl 64 (k0_pay4 v0 v4) slices_S16x49x256_o0_0_64_S16x49x32) (sl 64 (k0_pay5 v0 v4) slices_S16x49x256_o0_0_64_S16x49x32) (View.ld x3 r0_4)
    | 3 => headBlock (sl 96 (k0_pay3 v0 v4) slices_S16x49x256_o0_0_96_S16x49x32) (sl 96 (k0_pay4 v0 v4) slices_S16x49x256_o0_0_96_S16x49x32) (sl 96 (k0_pay5 v0 v4) slices_S16x49x256_o0_0_96_S16x49x32) (View.ld x3 r0_5)
    | 4 => headBlock (sl 128 (k0_pay3 v0 v4) slices_S16x49x256_o0_0_128_S16x49x32) (sl 128 (k0_pay4 v0 v4) slices_S16x49x256_o0_0_128_S16x49x32) (sl 128 (k0_pay5 v0 v4) slices_S16x49x256_o0_0_128_S16x49x32) (View.ld x3 r0_6)
    | 5 => headBlock (sl 160 (k0_pay3 v0 v4) slices_S16x49x256_o0_0_160_S16x49x32) (sl 160 (k0_pay4 v0 v4) slices_S16x49x256_o0_0_160_S16x49x32) (sl 160 (k0_pay5 v0 v4) slices_S16x49x256_o0_0_160_S16x49x32) (View.ld x3 r0_7)
    | 6 => headBlock (sl 192 (k0_pay3 v0 v4) slices_S16x49x256_o0_0_192_S16x49x32) (sl 192 (k0_pay4 v0 v4) slices_S16x49x256_o0_0_192_S16x49x32) (sl 192 (k0_pay5 v0 v4) slices_S16x49x256_o0_0_192_S16x49x32) (View.ld x3 r0_8)
    | 7 => headBlock (sl 224 (k0_pay3 v0 v4) slices_S16x49x256_o0_0_224_S16x49x32) (sl 224 (k0_pay4 v0 v4) slices_S16x49x256_o0_0_224_S16x49x32) (sl 224 (k0_pay5 v0 v4) slices_S16x49x256_o0_0_224_S16x49x32) (View.ld x3 r0_9)
    | ⟨_ + 8, h⟩ => absurd h (Nat.not_lt.2 (Nat.le_add_left _ _))
  have key : ∀ (hd : Fin 8) (d : Fin 32), HS hd (ix3 bb n d)
      = headOut (fun n c => x0 (ix3 bb n c)) (fun e c => x1 (ix2 c e)) (fun h' p q => x3 (ix3 h' p q)) hd n d := by
    intro hd d
    match hd with
    | 0 => exact head_apply x0 x1 x3 0 slices_S16x49x256_o0_0_0_S16x49x32 inb_S8x49x49_S1x49x49_0_0_0 bb n d
    | 1 => exact head_apply x0 x1 x3 1 slices_S16x49x256_o0_0_32_S16x49x32 inb_S8x49x49_S1x49x49_1_0_0 bb n d
    | 2 => exact head_apply x0 x1 x3 2 slices_S16x49x256_o0_0_64_S16x49x32 inb_S8x49x49_S1x49x49_2_0_0 bb n d
    | 3 => exact head_apply x0 x1 x3 3 slices_S16x49x256_o0_0_96_S16x49x32 inb_S8x49x49_S1x49x49_3_0_0 bb n d
    | 4 => exact head_apply x0 x1 x3 4 slices_S16x49x256_o0_0_128_S16x49x32 inb_S8x49x49_S1x49x49_4_0_0 bb n d
    | 5 => exact head_apply x0 x1 x3 5 slices_S16x49x256_o0_0_160_S16x49x32 inb_S8x49x49_S1x49x49_5_0_0 bb n d
    | 6 => exact head_apply x0 x1 x3 6 slices_S16x49x256_o0_0_192_S16x49x32 inb_S8x49x49_S1x49x49_6_0_0 bb n d
    | 7 => exact head_apply x0 x1 x3 7 slices_S16x49x256_o0_0_224_S16x49x32 inb_S8x49x49_S1x49x49_7_0_0 bb n d
  refine (projOut_apply HS x2 bb n e).trans ?_
  unfold winSpec
  exact Finset.sum_congr rfl fun c _ => by rw [key]

end Cert.KernelIdeal.KBlock

end
-- ==== Proof.KOut.lean ====
/-
  The array the kernel's result is the reshape of: entry (B, n, e) is the window function `winSpec` of window `B` of
  the input regrouped as 4096 windows of 49 tokens, of the two weight matrices, and of the per-head bias table the
  host gathers from the embedding rows.
-/
import proofs.«420347_j25786983645333_4_alg».proof.Proof.Gen.KernelIdeal
import proofs.«420347_j25786983645333_4_alg».proof.Proof.Spec

noncomputable section

namespace Cert.KernelIdeal.KRun

open Cert.KernelIdeal Cert.KernelIdeal.Gen Idealize.ShloMosaic Idealize.ShloMosaic.ValueIdx Cert.WinAttn

/-- The input regrouped as 4096 windows of 49 tokens (the host reshape before the region). -/
def xOf (a0 : Vec Ideal S64x8x8x7x7x256 .f32) : Vec Ideal S4096x49x256 .f32 :=
  shapeCast S4096x49x256 a0 shapeCasts_S64x8x8x7x7x256_S4096x49x256

/-- The per-head bias table (the host gather of the embedding rows at the wrapped indices, heads first). -/
def biasOf (a3 : Vec Ideal S169x8 .f32) (a4 : Vec Ideal S49x49 .i32) : Vec Ideal S8x49x49 .f32 :=
  transpose S8x49x49 [2, 0, 1]
    (Host.gather gather_S169x8_S49x49x1_S49x49x8_2_0_n_n_0_2_18 a3
      (broadcastInDim S49x49x1 ![0, 1] bcast_S49x49_S49x49x1_0_1
        (select (cmpi .slt a4 (broadcastInDim S49x49 ![] bcast_S_S49x49 (constantI S_ 32 0#32)))
          (addi a4 (broadcastInDim S49x49 ![] bcast_S_S49x49 (constantI S_ 32 169#32))) a4)))
    transposes_S49x49x8_S8x49x49_2_0_1

/-- The kernel's result before the last reshape: window by window, `winSpec` of the arguments. -/
def koutOf (a0 : Vec Ideal S64x8x8x7x7x256 .f32) (a1 : Vec Ideal S768x256 .f32) (a2 : Vec Ideal S256x256 .f32)
    (a3 : Vec Ideal S169x8 .f32) (a4 : Vec Ideal S49x49 .i32) : Vec Ideal S4096x49x256 .f32 :=
  fun i => winSpec (fun n d => xOf a0 (ix3 (i 0) n d)) (fun e d => a1 (ix2 e d)) (fun e c => a2 (ix2 e c))
    (fun h p q => biasOf a3 a4 (ix3 h p q)) (i 1) (i 2)

end Cert.KernelIdeal.KRun

end
-- ==== Proof.KRun.lean ====
/-
  The kernel's run with its result named.  The program regroups the input into 4096 windows of 49 tokens, transposes
  and narrows the two weight matrices, gathers the per-head bias table, runs the region over a grid of 256 points —
  point `t` reads windows `16 t … 16 t + 15` of the regrouped input and the whole weights and bias table, and writes
  windows `16 t … 16 t + 15` of the result — and regroups the result to rank 6.  Each point's stored block is the
  window function `winSpec` of its input blocks; the blocks of the 256 points tile the result array (window `B` lies
  in the block of point `B / 16`), so the array after the region is `winSpec` window by window, and the last
  regrouping reads that array.
-/
import proofs.«420347_j25786983645333_4_alg».proof.Proof.Gen.KernelIdeal.Frame
import proofs.«420347_j25786983645333_4_alg».proof.Proof.KBlock
import proofs.«420347_j25786983645333_4_alg».proof.Proof.KOut
import proofs.«420347_j25786983645333_4_alg».proof.Proof.Spec
import Idealize.ShloMosaic.Lib.Pipeline.Value
import Idealize.ShloMosaic.Lib.ValueIdx

noncomputable section

namespace Cert.KernelIdeal.KRun

open Cert.KernelIdeal Cert.KernelIdeal.Gen Idealize.ShloMosaic Idealize.ShloMosaic.TcCoe Idealize.ShloMosaic.ValueIdx Idealize.SL.Sem Cert.WinAttn

/-- The joint projection's weights as the region finds them: transposed and narrowed. -/
def wqT (a1 : Vec Ideal S768x256 .f32) : Vec Ideal S256x768 .bf16 :=
  truncf (F := Ideal) .bf16 (transpose S256x768 [1, 0] a1 transposes_S768x256_S256x768_1_0) bitsLt_bf16_f32

/-- The output projection's weights as the region finds them: transposed and narrowed. -/
def woT (a2 : Vec Ideal S256x256 .f32) : Vec Ideal S256x256 .bf16 :=
  truncf (F := Ideal) .bf16 (transpose S256x256 [1, 0] a2 transposes_S256x256_S256x256_1_0) bitsLt_bf16_f32

theorem wqT_apply (a1 : Vec Ideal S768x256 .f32) (d : Fin 256) (e : Fin 768) : wqT a1 (ix2 d e) = a1 (ix2 e d) := by
  unfold wqT
  rw [truncf_apply]
  refine transpose_apply _ _ _ _ _ fun b => ?_
  match b with
  | ⟨0, _⟩ => rfl
  | ⟨1, _⟩ => rfl

theorem woT_apply (a2 : Vec Ideal S256x256 .f32) (c : Fin 256) (e : Fin 256) : woT a2 (ix2 c e) = a2 (ix2 e c) := by
  unfold woT
  rw [truncf_apply]
  refine transpose_apply _ _ _ _ _ fun b => ?_
  match b with
  | ⟨0, _⟩ => rfl
  | ⟨1, _⟩ => rfl

section

variable (m : (ℓ : Loc nD τ sig) → Buf (Elt Ideal) ℓ)

theorem V_v0 (c : Dev nD) :
    (V m c main_v0 : Vec Ideal S4096x49x256 .f32) = xOf (m ((c.tc : Thread nD τ).loc main_arg0)) := by
  show StableHlo.after hostOps0 (fun b => m (c, b)) (Proc.devRef .tc main_v0) = _
  after_results
  rfl

theorem V_v2 (c : Dev nD) :
    (V m c main_v2 : Vec Ideal S256x768 .bf16) = wqT (m ((c.tc : Thread nD τ).loc main_arg1)) := by
  show StableHlo.after hostOps0 (fun b => m (c, b)) (Proc.devRef .tc main_v2) = _
  after_results
  rfl

theorem V_v4 (c : Dev nD) :
    (V m c main_v4 : Vec Ideal S256x256 .bf16) = woT (m ((c.tc : Thread nD τ).loc main_arg2)) := by
  show StableHlo.after hostOps0 (fun b => m (c, b)) (Proc.devRef .tc main_v4) = _
  after_results
  rfl

theorem V_v12 (c : Dev nD) :
    (V m c main_v12 : Vec Ideal S8x49x49 .f32) = biasOf (m ((c.tc : Thread nD τ).loc main_arg3)) (m ((c.tc : Thread nD τ).loc main_arg4)) := by
  show StableHlo.after hostOps0 (fun b => m (c, b)) (Proc.devRef .tc main_v12) = _
  after_results
  rfl

/-- The printed index maps over the grid: the input's and the output's blocks are the point's own on the window axis,
    the weights and the bias table are whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem lt_N (t : Fin cfg0.N) : t.val < 256 := lt_of_lt_of_eq t.isLt (N_0 : cfg0.N = 256)

/-- The input window's block at point `t` is windows `16 t … 16 t + 15` of the regrouped input. -/
theorem iblk0_apply (c : Dev nD) (t : Fin cfg0.N) (bb : Fin 16) (n : Fin 49) (d : Fin 256) :
    (iblk m c 0 t : Vec Ideal S16x49x256 .f32) (ix3 bb n d)
      = xOf (m ((c.tc : Thread nD τ).loc main_arg0)) (ix3 (⟨16 * t.val + bb.val, by have := lt_N t; omega⟩ : Fin 4096) n d) := by
  obtain ⟨e0, e1, e2, -⟩ := idx_facts t
  unfold iblk
  rw [View.read_apply]
  show V m c main_v0 _ = _
  refine (congrFun (V_v0 m c) _).trans ?_
  congr 1
  funext a
  apply Fin.ext
  match a with
  | ⟨0, _⟩ => show win0_0.index t (0 : Fin 3) * 16 + 1 * bb.val = 16 * t.val + bb.val; rw [e0]; omega
  | ⟨1, _⟩ => show win0_0.index t (1 : Fin 3) * 49 + 1 * n.val = n.val; rw [e1]; omega
  | ⟨2, _⟩ => show win0_0.index t (2 : Fin 3) * 256 + 1 * d.val = d.val; rw [e2]; omega

/-- The projection weights' block at any point is the whole transposed array. -/
theorem iblk1_apply (c : Dev nD) (t : Fin cfg0.N) (d : Fin 256) (e : Fin 768) :
    (iblk m c 1 t : Vec Ideal S256x768 .bf16) (ix2 d e) = (m ((c.tc : Thread nD τ).loc main_arg1) : Vec Ideal S768x256 .f32) (ix2 e d) := by
  obtain ⟨-, -, -, e0, e1, -⟩ := idx_facts t
  unfold iblk
  rw [View.read_apply]
  show V m c main_v2 _ = _
  refine (congrFun (V_v2 m c) _).trans ?_
  refine Eq.trans ?_ (wqT_apply _ d e)
  congr 1
  funext a
  apply Fin.ext
  match a with
  | ⟨0, _⟩ => show win0_1.index t (0 : Fin 2) * 256 + 1 * d.val = d.val; rw [e0]; omega
  | ⟨1, _⟩ => show win0_1.index t (1 : Fin 2) * 768 + 1 * e.val = e.val; rw [e1]; omega

theorem iblk2_apply (c : Dev nD) (t : Fin cfg0.N) (k : Fin 256) (e : Fin 256) :
    (iblk m c 2 t : Vec Ideal S256x256 .bf16) (ix2 k e) = (m ((c.tc : Thread nD τ).loc main_arg2) : Vec Ideal S256x256 .f32) (ix2 e k) := by
  obtain ⟨-, -, -, -, -, e0, e1, -⟩ := idx_facts t
  unfold iblk
  rw [View.read_apply]
  show V m c main_v4 _ = _
  refine (congrFun (V_v4 m c) _).trans ?_
  refine Eq.trans ?_ (woT_apply _ k e)
  congr 1
  funext a
  apply Fin.ext
  match a with
  | ⟨0, _⟩ => show win0_2.index t (0 : Fin 2) * 256 + 1 * k.val = k.val; rw [e0]; omega
  | ⟨1, _⟩ => show win0_2.index t (1 : Fin 2) * 256 + 1 * e.val = e.val; rw [e1]; omega

theorem iblk3_apply (c : Dev nD) (t : Fin cfg0.N) (h : Fin 8) (p : Fin 49) (q : Fin 49) :
    (iblk m c 3 t : Vec Ideal S8x49x49 .f32) (ix3 h p q)
      = biasOf (m ((c.tc : Thread nD τ).loc main_arg3)) (m ((c.tc : Thread nD τ).loc main_arg4)) (ix3 h p q) := by
  obtain ⟨-, -, -, -, -, -, -, e0, e1, e2, -⟩ := idx_facts t
  unfold iblk
  rw [View.read_apply]
  show V m c main_v12 _ = _
  refine (congrFun (V_v12 m c) _).trans ?_
  congr 1
  funext a
  apply Fin.ext
  match a with
  | ⟨0, _⟩ => show win0_3.index t (0 : Fin 3) * 8 + 1 * h.val = h.val; rw [e0]; omega
  | ⟨1, _⟩ => show win0_3.index t (1 : Fin 3) * 49 + 1 * p.val = p.val; rw [e1]; omega
  | ⟨2, _⟩ => show win0_3.index t (2 : Fin 3) * 49 + 1 * q.val = q.val; rw [e2]; omega

/-- What the body stores at a block entry is the window function of the arguments, whenever the four input blocks
    are the arguments' as the windows' rectangles say: the input block's window `bb` is window `16 T + bb`. -/
theorem out_at (a0 : Vec Ideal S64x8x8x7x7x256 .f32) (a1 : Vec Ideal S768x256 .f32) (a2 : Vec Ideal S256x256 .f32)
    (a3 : Vec Ideal S169x8 .f32) (a4 : Vec Ideal S49x49 .i32) (T : Fin 256)
    (x0 : Vec Ideal S16x49x256 .f32) (x1 : Vec Ideal S256x768 .bf16) (x2 : Vec Ideal S256x256 .bf16) (x3 : Vec Ideal S8x49x49 .f32)
    (h0 : ∀ (bb : Fin 16) (n : Fin 49) (d : Fin 256),
      x0 (ix3 bb n d) = xOf a0 (ix3 (⟨16 * T.val + bb.val, by omega⟩ : Fin 4096) n d))
    (h1 : ∀ (d : Fin 256) (e : Fin 768), x1 (ix2 d e) = a1 (ix2 e d))
    (h2 : ∀ (k : Fin 256) (e : Fin 256), x2 (ix2 k e) = a2 (ix2 e k))
    (h3 : ∀ (h : Fin 8) (p q : Fin 49), x3 (ix3 h p q) = biasOf a3 a4 (ix3 h p q))
    (bb : Fin 16) (n : Fin 49) (e : Fin 256) :
    out0_4 (F := Ideal) x0 x1 x2 x3 (ix3 bb n e)
      = koutOf a0 a1 a2 a3 a4 (ix3 (⟨16 * T.val + bb.val, by omega⟩ : Fin 4096) n e) := by
  rw [KBlock.out_apply]
  have e0 : (fun n d => x0 (ix3 bb n d)) = fun (n : Fin 49) (d : Fin 256) => xOf a0 (ix3 (⟨16 * T.val + bb.val, by omega⟩ : Fin 4096) n d) :=
    funext fun n => funext fun d => h0 bb n d
  have e1 : (fun e d => x1 (ix2 d e)) = fun (e : Fin 768) (d : Fin 256) => a1 (ix2 e d) := funext fun e => funext fun d => h1 d e
  have e2 : (fun e k => x2 (ix2 k e)) = fun (e : Fin 256) (k : Fin 256) => a2 (ix2 e k) := funext fun e => funext fun k => h2 k e
  have e3 : (fun h i j => x3 (ix3 h i j)) = fun (h : Fin 8) (p q : Fin 49) => biasOf a3 a4 (ix3 h p q) :=
    funext fun h => funext fun p => funext fun q => h3 h p q
  rw [e0, e1, e2, e3]
  rfl

/-- The same at any index `j` of the block and the index `i` of the array the block's rectangle sends it to. -/
theorem out_at_idx (a0 : Vec Ideal S64x8x8x7x7x256 .f32) (a1 : Vec Ideal S768x256 .f32) (a2 : Vec Ideal S256x256 .f32)
    (a3 : Vec Ideal S169x8 .f32) (a4 : Vec Ideal S49x49 .i32) (T : Fin 256)
    (x0 : Vec Ideal S16x49x256 .f32) (x1 : Vec Ideal S256x768 .bf16) (x2 : Vec Ideal S256x256 .bf16) (x3 : Vec Ideal S8x49x49 .f32)
    (h0 : ∀ (bb : Fin 16) (n : Fin 49) (d : Fin 256),
      x0 (ix3 bb n d) = xOf a0 (ix3 (⟨16 * T.val + bb.val, by omega⟩ : Fin 4096) n d))
    (h1 : ∀ (d : Fin 256) (e : Fin 768), x1 (ix2 d e) = a1 (ix2 e d))
    (h2 : ∀ (k : Fin 256) (e : Fin 256), x2 (ix2 k e) = a2 (ix2 e k))
    (h3 : ∀ (h : Fin 8) (p q : Fin 49), x3 (ix3 h p q) = biasOf a3 a4 (ix3 h p q))
    (j : S16x49x256.Idx) (i : S4096x49x256.Idx)
    (hi0 : (i 0).val = 16 * T.val + (j 0).val) (hi1 : (i 1).val = (j 1).val) (hi2 : (i 2).val = (j 2).val) :
    out0_4 (F := Ideal) x0 x1 x2 x3 j = koutOf a0 a1 a2 a3 a4 i := by
  have hj : j = ix3 (j 0) (j 1) (j 2) := eq_ix3 j
  have hj0 : (j 0).val < 16 := (j 0).isLt
  have hi : i = ix3 (⟨16 * T.val + (j 0).val, by omega⟩ : Fin 4096) (j 1) (j 2) := by
    funext a
    apply Fin.ext
    match a with
    | ⟨0, _⟩ => exact hi0
    | ⟨1, _⟩ => exact hi1
    | ⟨2, _⟩ => exact hi2
  rw [hi]
  refine Eq.trans (congrArg (out0_4 (F := Ideal) x0 x1 x2 x3) hj) ?_
  exact out_at a0 a1 a2 a3 a4 T x0 x1 x2 x3 h0 h1 h2 h3 (j 0) (j 1) (j 2)

/-- WHAT POINT `t` WRITES BACK is block `t` of the window function of the arguments. -/
theorem flushed_eq (c : Dev nD) (t : Fin cfg0.N) :
    (dats m 0 c).flushed 4 t = ((cfg0.win 4).blk t).view.read (Elt Ideal)
      (koutOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) := by
  show (cfg0.win 4).cut (grid0.coords t) ((dats m 0 c).after 4 t) = _
  rw [after0_4]
  obtain ⟨-, -, -, -, -, -, -, -, -, -, e0, e1, e2⟩ := idx_facts t
  funext j
  show out0_4 (F := Ideal) (iblk m c 0 t) (iblk m c 1 t) (iblk m c 2 t) (iblk m c 3 t) j
    = koutOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (((cfg0.win 4).blk t).view.emb j)
  refine out_at_idx (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    ⟨t.val, lt_N t⟩ (iblk m c 0 t) (iblk m c 1 t) (iblk m c 2 t) (iblk m c 3 t)
    (fun bb n d => iblk0_apply m c t bb n d) (fun d e => iblk1_apply m c t d e) (fun k e => iblk2_apply m c t k e)
    (fun h p q => iblk3_apply m c t h p q) j (((cfg0.win 4).blk t).view.emb j) ?_ ?_ ?_
  · show win0_4.index t (0 : Fin 3) * 16 + 1 * (j 0).val = 16 * t.val + (j 0).val; rw [e0]; omega
  · show win0_4.index t (1 : Fin 3) * 49 + 1 * (j 1).val = (j 1).val; rw [e1]; omega
  · show win0_4.index t (2 : Fin 3) * 256 + 1 * (j 2).val = (j 2).val; rw [e2]; omega

/-- An index of the result array is in point `t`'s block iff each coordinate is in the block's range on its axis. -/
theorem mem_blk (t : Fin cfg0.N) (i : S4096x49x256.Idx) :
    i ∈ ((cfg0.win 4).blk t).view.set ↔ ∀ a : Fin 3, win0_4.index t a * S16x49x256.size a ≤ (i a).val
      ∧ (i a).val < win0_4.index t a * S16x49x256.size a + S16x49x256.size a := by
  show i ∈ ((View.whole main_v13).slice (win0_4.rect t)).set ↔ _
  rw [View.set_slice_whole, Rect.mem_set_unit]
  exact Iff.rfl

/-- Every index of the result array is in some point's block: window `B` is in the block of point `B / 16`. -/
theorem cover (i : S4096x49x256.Idx) :
    ∃ t : Fin cfg0.N, (cfg0.win 4).flush t = true ∧ i ∈ ((cfg0.win 4).blk t).view.set := by
  have h0 : (i 0).val < 4096 := (i 0).isLt
  have h1 : (i 1).val < 49 := (i 1).isLt
  have h2 : (i 2).val < 256 := (i 2).isLt
  have hN : (i 0).val / 16 < cfg0.N := lt_of_lt_of_eq (by omega : (i 0).val / 16 < 256) (N_0 : cfg0.N = 256).symm
  obtain ⟨-, -, -, -, -, -, -, -, -, -, e0, e1, e2⟩ := idx_facts ⟨(i 0).val / 16, hN⟩
  refine ⟨⟨(i 0).val / 16, hN⟩, flush0_4 _, ?_⟩
  rw [mem_blk]
  intro a
  match a with
  | ⟨0, _⟩ =>
    show win0_4.index ⟨(i 0).val / 16, hN⟩ (0 : Fin 3) * 16 ≤ (i 0).val ∧ (i 0).val < win0_4.index ⟨(i 0).val / 16, hN⟩ (0 : Fin 3) * 16 + 16
    rw [e0]; show (i 0).val / 16 * 16 ≤ (i 0).val ∧ (i 0).val < (i 0).val / 16 * 16 + 16; omega
  | ⟨1, _⟩ =>
    show win0_4.index ⟨(i 0).val / 16, hN⟩ (1 : Fin 3) * 49 ≤ (i 1).val ∧ (i 1).val < win0_4.index ⟨(i 0).val / 16, hN⟩ (1 : Fin 3) * 49 + 49
    rw [e1]; omega
  | ⟨2, _⟩ =>
    show win0_4.index ⟨(i 0).val / 16, hN⟩ (2 : Fin 3) * 256 ≤ (i 2).val ∧ (i 2).val < win0_4.index ⟨(i 0).val / 16, hN⟩ (2 : Fin 3) * 256 + 256
    rw [e2]; omega

/-- THE RESULT ARRAY after the region: the window function of the arguments, window by window. -/
theorem final (c : Dev nD) : (dats m 0 c).arrAt 4 cfg0.N
    = koutOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (dats m 0 c).arrAt_eq_of_cover 4 _ (fun t _ => flushed_eq m c t) cover

/-- The host reshape after the region reads the result array: the program's result is its rank-6 regrouping. -/
theorem tail_eq (c : Dev nD) :
    Pipeline.afterTail₀ cfgs (dats m) 0 (V0 m) [hostOps1] c main_v14
      = shapeCast S64x8x8x7x7x256 (koutOf (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
          shapeCasts_S4096x49x256_S64x8x8x7x7x256 := by
  unfold Pipeline.afterTail₀
  show StableHlo.after hostOps1 _ (Proc.devRef .tc main_v14) = _
  after_results
  exact congrArg (fun y : Vec Ideal S4096x49x256 .f32 => shapeCast S64x8x8x7x7x256 y shapeCasts_S4096x49x256_S64x8x8x7x7x256)
    ((Pipeline.withArrays_arr spec0 launch0.win.arr_inj c _ _ 4).trans (final m c))

end

/-- Every weakly fair run of the program terminates with the result buffer at the rank-6 regrouping of the window
    function of the arguments, window by window, and the five arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
        = shapeCast S64x8x8x7x7x256 (koutOf (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
            shapeCasts_S4096x49x256_S64x8x8x7x7x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.RefVal.lean ====
import proofs.«420347_j25786983645333_4_alg».proof.Proof.Gen.ReferenceIdeal.Read
import proofs.«420347_j25786983645333_4_alg».proof.Proof.Spec

noncomputable section

namespace Cert.ReferenceIdeal.RefVal

open Cert.ReferenceIdeal Cert.ReferenceIdeal.Read Idealize.ShloMosaic Idealize.ShloMosaic.ValueIdx Cert.WinAttn

/-! The reference read stage by stage at explicit coordinates: each stage of window `B` is the matching piece of
    the window function (`proj`, `sim`, `rowMax`, `expo`, `attn`, `headOut`, `winSpec`) of that window's tokens. -/

section
variable (a0 : (⟨S64x8x8x7x7x256, .f32⟩ : BufTy).Contents (Elt Ideal)) (a1 : (⟨S768x256, .f32⟩ : BufTy).Contents (Elt Ideal))
  (a2 : (⟨S256x256, .f32⟩ : BufTy).Contents (Elt Ideal)) (a3 : (⟨S169x8, .f32⟩ : BufTy).Contents (Elt Ideal))
  (a4 : (⟨S49x49, .i32⟩ : BufTy).Contents (Elt Ideal))

/-- The tokens of window `B`. -/
def xwin (B : Fin 4096) : Fin 49 → Fin 256 → EReal := fun n d => val_main_v0 (F := Ideal) a0 (ix3 B n d)
/-- The joint projection weights as a curried function. -/
def wqf : Fin 768 → Fin 256 → EReal := fun e d => a1 (ix2 e d)
/-- The bias as a curried function. -/
def biasf : Fin 8 → Fin 49 → Fin 49 → EReal := fun h i j => val_main_v21 (F := Ideal) a3 a4 (ix3 h i j)

/-- The joint projection of window `B`, token `n`, column `e`. -/
theorem v1_at (B : Fin 4096) (n : Fin 49) (e : Fin 768) :
    val_main_v1 (F := Ideal) a0 a1 (ix3 B n e) = proj (xwin a0 B) (wqf a1) n e := by
  rw [val_main_v1_apply]
  unfold proj
  refine Finset.sum_congr rfl fun k _ => ?_
  have el : lidx_main_v1 (ix3 B n e) k = ix3 B n k :=
    funext fun a => by match a with | ⟨0, _⟩ => rfl | ⟨1, _⟩ => rfl | ⟨2, _⟩ => rfl
  have er : ridx_main_v1 (ix3 B n e) k = ix2 e k :=
    funext fun a => by match a with | ⟨0, _⟩ => rfl | ⟨1, _⟩ => rfl
  rw [el, er]; rfl

/-- The query of head `h`, token `i`, column `d`: column `32 h + d` of the first group. -/
theorem v6_at (B : Fin 4096) (h : Fin 8) (i : Fin 49) (d : Fin 32) :
    val_main_v6 (F := Ideal) a0 a1 (ix4 B h i d) = proj (xwin a0 B) (wqf a1) i (qcol h d) := by
  rw [val_main_v6_apply, val_main_v5_apply, val_main_v2_apply]
  have e : idx_main_v2 (idx_main_v5 (idx_main_v6 (ix4 B h i d))) = ix3 B i (qcol h d) := funext fun a => Fin.ext (by
    have hB := B.isLt; have hh := h.isLt; have hi := i.isLt; have hd := d.isLt
    match a with
    | ⟨0, _⟩ => show (((B.val * 49 + i.val) * 8 + h.val) * 32 + d.val) / 12544 = B.val; omega
    | ⟨1, _⟩ => show (((B.val * 49 + i.val) * 8 + h.val) * 32 + d.val) / 256 % 49 = i.val; omega
    | ⟨2, _⟩ => show (((B.val * 49 + i.val) * 8 + h.val) * 32 + d.val) % 256 = 32 * h.val + d.val; omega)
  rw [e, v1_at]

/-- The key of head `h`, token `j`, column `d`: column `256 + 32 h + d`. -/
theorem v8_at (B : Fin 4096) (h : Fin 8) (j : Fin 49) (d : Fin 32) :
    val_main_v8 (F := Ideal) a0 a1 (ix4 B h j d) = proj (xwin a0 B) (wqf a1) j (kcol h d) := by
  rw [val_main_v8_apply, val_main_v7_apply, val_main_v3_apply]
  have e : idx_main_v3 (idx_main_v7 (idx_main_v8 (ix4 B h j d))) = ix3 B j (kcol h d) := funext fun a => Fin.ext (by
    have hB := B.isLt; have hh := h.isLt; have hj := j.isLt; have hd := d.isLt
    match a with
    | ⟨0, _⟩ => show (((B.val * 49 + j.val) * 8 + h.val) * 32 + d.val) / 12544 = B.val; omega
    | ⟨1, _⟩ => show (((B.val * 49 + j.val) * 8 + h.val) * 32 + d.val) / 256 % 49 = j.val; omega
    | ⟨2, _⟩ => show 256 + (((B.val * 49 + j.val) * 8 + h.val) * 32 + d.val) % 256 = 256 + (32 * h.val + d.val); omega)
  rw [e, v1_at]

/-- The value of head `h`, token `j`, column `d`: column `512 + 32 h + d`. -/
theorem v10_at (B : Fin 4096) (h : Fin 8) (j : Fin 49) (d : Fin 32) :
    val_main_v10 (F := Ideal) a0 a1 (ix4 B h j d) = proj (xwin a0 B) (wqf a1) j (vcol h d) := by
  rw [val_main_v10_apply, val_main_v9_apply, val_main_v4_apply]
  have e : idx_main_v4 (idx_main_v9 (idx_main_v10 (ix4 B h j d))) = ix3 B j (vcol h d) := funext fun a => Fin.ext (by
    have hB := B.isLt; have hh := h.isLt; have hj := j.isLt; have hd := d.isLt
    match a with
    | ⟨0, _⟩ => show (((B.val * 49 + j.val) * 8 + h.val) * 32 + d.val) / 12544 = B.val; omega
    | ⟨1, _⟩ => show (((B.val * 49 + j.val) * 8 + h.val) * 32 + d.val) / 256 % 49 = j.val; omega
    | ⟨2, _⟩ => show 512 + (((B.val * 49 + j.val) * 8 + h.val) * 32 + d.val) % 256 = 512 + (32 * h.val + d.val); omega)
  rw [e, v1_at]

/-- The scaled query. -/
theorem v12_at (B : Fin 4096) (h : Fin 8) (i : Fin 49) (d : Fin 32) :
    val_main_v12 (F := Ideal) a0 a1 (ix4 B h i d) = proj (xwin a0 B) (wqf a1) i (qcol h d) * sc := by
  rw [val_main_v12_apply, v6_at, val_main_v11_apply, val_main_cst_apply]; rfl

/-- The unbiased score: the scaled query of `i` against the key of `j` over the head's columns. -/
theorem v13_at (B : Fin 4096) (h : Fin 8) (i j : Fin 49) :
    val_main_v13 (F := Ideal) a0 a1 (ix4 B h i j)
      = ∑ d : Fin 32, (proj (xwin a0 B) (wqf a1) i (qcol h d) * sc) * proj (xwin a0 B) (wqf a1) j (kcol h d) := by
  rw [val_main_v13_apply]
  refine Finset.sum_congr rfl fun k _ => ?_
  have el : lidx_main_v13 (ix4 B h i j) k = ix4 B h i k :=
    funext fun a => by match a with | ⟨0, _⟩ => rfl | ⟨1, _⟩ => rfl | ⟨2, _⟩ => rfl | ⟨3, _⟩ => rfl
  have er : ridx_main_v13 (ix4 B h i j) k = ix4 B h j k :=
    funext fun a => by match a with | ⟨0, _⟩ => rfl | ⟨1, _⟩ => rfl | ⟨2, _⟩ => rfl | ⟨3, _⟩ => rfl
  rw [el, er, v12_at, v8_at]

/-- The bias, the same for every window. -/
theorem v23_at (B : Fin 4096) (h : Fin 8) (i j : Fin 49) :
    val_main_v23 (F := Ideal) a3 a4 (ix4 B h i j) = biasf a3 a4 h i j := by
  rw [val_main_v23_apply, val_main_v22_apply]
  have e : idx_main_v22 (idx_main_v23 (ix4 B h i j)) = ix3 h i j :=
    funext fun a => by match a with | ⟨0, _⟩ => rfl | ⟨1, _⟩ => rfl | ⟨2, _⟩ => rfl
  rw [e]; rfl

/-- The biased score. -/
theorem v24_at (B : Fin 4096) (h : Fin 8) (i j : Fin 49) :
    val_main_v24 (F := Ideal) a0 a1 a3 a4 (ix4 B h i j) = sim (xwin a0 B) (wqf a1) (biasf a3 a4) h i j := by
  rw [val_main_v24_apply, v13_at, v23_at]; rfl

/-- The raw row maximum: the fold of `max` from `-∞` over the row of scores. -/
theorem v25_at (B : Fin 4096) (h : Fin 8) (i : Fin 49) :
    val_main_v25 (F := Ideal) a0 a1 a3 a4 (ix3 B h i) = rowMax (sim (xwin a0 B) (wqf a1) (biasf a3 a4) h i) := by
  have hR : S4096x8x49x49.Reduces [3] S4096x8x49 := by decide
  unfold val_main_v25
  refine (Host.reduce_eq_fold_single (FloatOps.maximumf (F := Ideal) (φ := .f32)) (val_main_v24 (F := Ideal) a0 a1 a3 a4)
    (val_main_cst_1 (F := Ideal)) Gen.reducesTo_S4096x8x49x49_S4096x8x49_d3 hR Gen.h_S_ (ix3 B h i)).trans ?_
  have hf : (val_main_v24 (F := Ideal) a0 a1 a3 a4 ∘ hR.lift (ix3 B h i))
      = fun k : Fin 49 => sim (xwin a0 B) (wqf a1) (biasf a3 a4) h i k := funext fun k => by
    have ek : hR.lift (ix3 B h i) k = ix4 B h i (⟨k.val, k.isLt⟩ : Fin 49) := funext fun a => Fin.ext (by
      match a with | ⟨0, _⟩ => rfl | ⟨1, _⟩ => rfl | ⟨2, _⟩ => rfl | ⟨3, _⟩ => rfl)
    show val_main_v24 (F := Ideal) a0 a1 a3 a4 (hR.lift (ix3 B h i) k) = _
    rw [ek, v24_at]; rfl
  exact congrArg (fun f => Finset.fold max negInf f (Finset.univ : Finset (Fin 49))) hf

/-- The row maximum: taking the maximum with `-∞` once more changes nothing. -/
theorem v27_at (B : Fin 4096) (h : Fin 8) (i : Fin 49) :
    val_main_v27 (F := Ideal) a0 a1 a3 a4 (ix3 B h i) = rowMax (sim (xwin a0 B) (wqf a1) (biasf a3 a4) h i) := by
  rw [val_main_v27_apply, v25_at, val_main_v26_apply, val_main_cst_2_apply]
  unfold rowMax
  show max negInf (Finset.fold max negInf _ _) = _
  exact max_eq_right ((Finset.le_fold_max _).mpr (Or.inl le_rfl))

/-- The row maximum spread back over the row. -/
theorem v29_at (B : Fin 4096) (h : Fin 8) (i j : Fin 49) :
    val_main_v29 (F := Ideal) a0 a1 a3 a4 (ix4 B h i j) = rowMax (sim (xwin a0 B) (wqf a1) (biasf a3 a4) h i) := by
  rw [val_main_v29_apply, val_main_v28_apply]
  have e : idx_main_v28 (idx_main_v29 (ix4 B h i j)) = ix3 B h i :=
    funext fun a => by match a with | ⟨0, _⟩ => rfl | ⟨1, _⟩ => rfl | ⟨2, _⟩ => rfl
  rw [e, v27_at]

/-- The exponential of a score less its row maximum. -/
theorem v31_at (B : Fin 4096) (h : Fin 8) (i j : Fin 49) :
    val_main_v31 (F := Ideal) a0 a1 a3 a4 (ix4 B h i j) = expo (sim (xwin a0 B) (wqf a1) (biasf a3 a4) h i) j := by
  rw [val_main_v31_apply, val_main_v30_apply, v24_at, v29_at]; rfl

/-- The row's sum of exponentials. -/
theorem v32_at (B : Fin 4096) (h : Fin 8) (i : Fin 49) :
    val_main_v32 (F := Ideal) a0 a1 a3 a4 (ix3 B h i) = ∑ k : Fin 49, expo (sim (xwin a0 B) (wqf a1) (biasf a3 a4) h i) k := by
  rw [val_main_v32_apply, val_main_cst_3_apply]
  rw [show FloatOps.ofBits (F := Ideal) .f32 0x00000000#32 = 0 from Ideal.ofBits_zero_f32, zero_add]
  refine Finset.sum_congr rfl fun k _ => ?_
  have e : idx_main_v32 (ix3 B h i) k = ix4 B h i k :=
    funext fun a => by match a with | ⟨0, _⟩ => rfl | ⟨1, _⟩ => rfl | ⟨2, _⟩ => rfl | ⟨3, _⟩ => rfl
  rw [e, v31_at]

/-- The softmax weight. -/
theorem v35_at (B : Fin 4096) (h : Fin 8) (i j : Fin 49) :
    val_main_v35 (F := Ideal) a0 a1 a3 a4 (ix4 B h i j) = attn (sim (xwin a0 B) (wqf a1) (biasf a3 a4) h i) j := by
  rw [val_main_v35_apply, v31_at, val_main_v34_apply, val_main_v33_apply]
  have e : idx_main_v33 (idx_main_v34 (ix4 B h i j)) = ix3 B h i :=
    funext fun a => by match a with | ⟨0, _⟩ => rfl | ⟨1, _⟩ => rfl | ⟨2, _⟩ => rfl
  rw [e, v32_at]; rfl

/-- The head's output: the weights against the values. -/
theorem v36_at (B : Fin 4096) (h : Fin 8) (i : Fin 49) (d : Fin 32) :
    val_main_v36 (F := Ideal) a0 a1 a3 a4 (ix4 B h i d) = headOut (xwin a0 B) (wqf a1) (biasf a3 a4) h i d := by
  rw [val_main_v36_apply]
  unfold headOut
  refine Finset.sum_congr rfl fun k _ => ?_
  have el : lidx_main_v36 (ix4 B h i d) k = ix4 B h i k :=
    funext fun a => by match a with | ⟨0, _⟩ => rfl | ⟨1, _⟩ => rfl | ⟨2, _⟩ => rfl | ⟨3, _⟩ => rfl
  have er : ridx_main_v36 (ix4 B h i d) k = ix4 B h k d :=
    funext fun a => by match a with | ⟨0, _⟩ => rfl | ⟨1, _⟩ => rfl | ⟨2, _⟩ => rfl | ⟨3, _⟩ => rfl
  rw [el, er, v35_at, v10_at]

/-- The heads side by side: column `c` of token `7 y + z` is column `c % 32` of head `c / 32`. -/
theorem v38_at (B : Fin 4096) (y z : Fin 7) (c : Fin 256) :
    val_main_v38 (F := Ideal) a0 a1 a3 a4 (ix4 B y z c)
      = headOut (xwin a0 B) (wqf a1) (biasf a3 a4) (headOf c) ⟨7 * y.val + z.val, by omega⟩ (inHead c) := by
  rw [val_main_v38_apply, val_main_v37_apply]
  have e : idx_main_v37 (idx_main_v38 (ix4 B y z c))
      = ix4 B (headOf c) (⟨7 * y.val + z.val, by omega⟩ : Fin 49) (inHead c) := funext fun a => Fin.ext (by
    have hB := B.isLt; have hy := y.isLt; have hz := z.isLt; have hc := c.isLt
    match a with
    | ⟨0, _⟩ => show (((B.val * 7 + y.val) * 7 + z.val) * 256 + c.val) / 12544 = B.val; omega
    | ⟨1, _⟩ => show (((B.val * 7 + y.val) * 7 + z.val) * 256 + c.val) / 32 % 8 = c.val / 32; omega
    | ⟨2, _⟩ => show (((B.val * 7 + y.val) * 7 + z.val) * 256 + c.val) / 256 % 49 = 7 * y.val + z.val; omega
    | ⟨3, _⟩ => show (((B.val * 7 + y.val) * 7 + z.val) * 256 + c.val) % 32 = c.val % 32; omega)
  rw [e, v36_at]

end

theorem ref_apply (a0 : (⟨S64x8x8x7x7x256, .f32⟩ : BufTy).Contents (Elt Ideal)) (a1 : (⟨S768x256, .f32⟩ : BufTy).Contents (Elt Ideal))
    (a2 : (⟨S256x256, .f32⟩ : BufTy).Contents (Elt Ideal)) (a3 : (⟨S169x8, .f32⟩ : BufTy).Contents (Elt Ideal))
    (a4 : (⟨S49x49, .i32⟩ : BufTy).Contents (Elt Ideal)) (B : Fin 4096) (y z : Fin 7) (e : Fin 256) :
    val_main_v39 (F := Ideal) a0 a1 a2 a3 a4 (ix4 B y z e)
      = winSpec (fun n d => val_main_v0 (F := Ideal) a0 (ix3 B n d)) (fun e d => a1 (ix2 e d)) (fun e c => a2 (ix2 e c))
          (fun h i j => val_main_v21 (F := Ideal) a3 a4 (ix3 h i j)) ⟨7 * y.val + z.val, by omega⟩ e := by
  rw [val_main_v39_apply]
  unfold winSpec
  refine Finset.sum_congr rfl fun k _ => ?_
  have el : lidx_main_v39 (ix4 B y z e) k = ix4 B y z k :=
    funext fun a => by match a with | ⟨0, _⟩ => rfl | ⟨1, _⟩ => rfl | ⟨2, _⟩ => rfl | ⟨3, _⟩ => rfl
  have er : ridx_main_v39 (ix4 B y z e) k = ix2 e k :=
    funext fun a => by match a with | ⟨0, _⟩ => rfl | ⟨1, _⟩ => rfl
  rw [el, er, v38_at]; rfl

end Cert.ReferenceIdeal.RefVal

end
-- ==== Proof.Bridge.lean ====
import proofs.«420347_j25786983645333_4_alg».proof.Proof.RefVal
import proofs.«420347_j25786983645333_4_alg».proof.Proof.KOut
import Idealize.ShloMosaic.Lib.ValueIdxRank6
import Idealize.ShloMosaic.Lib.Pipeline.Value

noncomputable section

namespace Cert.Proof.Bridge

open Idealize.ShloMosaic Idealize.ShloMosaic.ValueIdx Cert.WinAttn

/-! The reference's result and the reshape of the window-by-window array agree: entry (j0, …, j5) of either is
    `winSpec` of window `(8 j0 + j1) 8 + j2` at token `7 j3 + j4`, column `j5`. -/

/-- Both programs regroup the input into windows by the same reshape. -/
theorem v0_eq (a0 : (⟨Cert.ReferenceIdeal.S64x8x8x7x7x256, .f32⟩ : BufTy).Contents (Elt Ideal)) :
    Cert.ReferenceIdeal.Read.val_main_v0 (F := Ideal) a0 = Cert.KernelIdeal.KRun.xOf a0 := rfl

/-- Both programs build the per-head bias table by the same gather and transpose. -/
theorem v21_eq (a3 : (⟨Cert.ReferenceIdeal.S169x8, .f32⟩ : BufTy).Contents (Elt Ideal))
    (a4 : (⟨Cert.ReferenceIdeal.S49x49, .i32⟩ : BufTy).Contents (Elt Ideal)) :
    Cert.ReferenceIdeal.Read.val_main_v21 (F := Ideal) a3 a4 = Cert.KernelIdeal.KRun.biasOf a3 a4 := rfl

theorem result_at (a0 : (⟨Cert.ReferenceIdeal.S64x8x8x7x7x256, .f32⟩ : BufTy).Contents (Elt Ideal))
    (a1 : (⟨Cert.ReferenceIdeal.S768x256, .f32⟩ : BufTy).Contents (Elt Ideal))
    (a2 : (⟨Cert.ReferenceIdeal.S256x256, .f32⟩ : BufTy).Contents (Elt Ideal))
    (a3 : (⟨Cert.ReferenceIdeal.S169x8, .f32⟩ : BufTy).Contents (Elt Ideal))
    (a4 : (⟨Cert.ReferenceIdeal.S49x49, .i32⟩ : BufTy).Contents (Elt Ideal))
    (j0 : Fin 64) (j1 j2 : Fin 8) (j3 j4 : Fin 7) (j5 : Fin 256) :
    Cert.ReferenceIdeal.Read.val_main_v40 (F := Ideal) a0 a1 a2 a3 a4 (ix6 j0 j1 j2 j3 j4 j5)
      = shapeCast Cert.KernelIdeal.S64x8x8x7x7x256 (Cert.KernelIdeal.KRun.koutOf a0 a1 a2 a3 a4)
          Cert.KernelIdeal.Gen.shapeCasts_S4096x49x256_S64x8x8x7x7x256 (ix6 j0 j1 j2 j3 j4 j5) := by
  have h0 := j0.isLt; have h1 := j1.isLt; have h2 := j2.isLt; have h3 := j3.isLt; have h4 := j4.isLt
  have hB : (j0.val * 8 + j1.val) * 8 + j2.val < 4096 := by omega
  have hn : 7 * j3.val + j4.val < 49 := by omega
  have hl : Cert.ReferenceIdeal.Read.val_main_v40 (F := Ideal) a0 a1 a2 a3 a4 (ix6 j0 j1 j2 j3 j4 j5)
      = Cert.ReferenceIdeal.Read.val_main_v39 (F := Ideal) a0 a1 a2 a3 a4
          (ix4 (⟨(j0.val * 8 + j1.val) * 8 + j2.val, hB⟩ : Fin 4096) j3 j4 j5) := by
    unfold Cert.ReferenceIdeal.Read.val_main_v40
    refine shapeCast_apply _ Cert.ReferenceIdeal.Gen.shapeCasts_S4096x7x7x256_S64x8x8x7x7x256 _ _ ?_
    rw [Shape.rowMajor_val_four, Shape.rowMajor_val_six]
    show ((((j0.val * 8 + j1.val) * 8 + j2.val) * 7 + j3.val) * 7 + j4.val) * 256 + j5.val
      = ((((j0.val * 8 + j1.val) * 8 + j2.val) * 7 + j3.val) * 7 + j4.val) * 256 + j5.val
    rfl
  have hr : shapeCast Cert.KernelIdeal.S64x8x8x7x7x256 (Cert.KernelIdeal.KRun.koutOf a0 a1 a2 a3 a4)
        Cert.KernelIdeal.Gen.shapeCasts_S4096x49x256_S64x8x8x7x7x256 (ix6 j0 j1 j2 j3 j4 j5)
      = Cert.KernelIdeal.KRun.koutOf a0 a1 a2 a3 a4
          (ix3 (⟨(j0.val * 8 + j1.val) * 8 + j2.val, hB⟩ : Fin 4096) (⟨7 * j3.val + j4.val, hn⟩ : Fin 49) j5) := by
    refine shapeCast_apply _ Cert.KernelIdeal.Gen.shapeCasts_S4096x49x256_S64x8x8x7x7x256 _ _ ?_
    rw [Shape.rowMajor_val_three, Shape.rowMajor_val_six]
    show (((j0.val * 8 + j1.val) * 8 + j2.val) * 49 + (7 * j3.val + j4.val)) * 256 + j5.val
      = ((((j0.val * 8 + j1.val) * 8 + j2.val) * 7 + j3.val) * 7 + j4.val) * 256 + j5.val
    omega
  rw [hl, hr, Cert.ReferenceIdeal.RefVal.ref_apply, v0_eq, v21_eq]
  rfl

theorem result_eq (a0 : (⟨Cert.ReferenceIdeal.S64x8x8x7x7x256, .f32⟩ : BufTy).Contents (Elt Ideal))
    (a1 : (⟨Cert.ReferenceIdeal.S768x256, .f32⟩ : BufTy).Contents (Elt Ideal))
    (a2 : (⟨Cert.ReferenceIdeal.S256x256, .f32⟩ : BufTy).Contents (Elt Ideal))
    (a3 : (⟨Cert.ReferenceIdeal.S169x8, .f32⟩ : BufTy).Contents (Elt Ideal))
    (a4 : (⟨Cert.ReferenceIdeal.S49x49, .i32⟩ : BufTy).Contents (Elt Ideal)) :
    Cert.ReferenceIdeal.Read.val_main_v40 (F := Ideal) a0 a1 a2 a3 a4
      = shapeCast Cert.KernelIdeal.S64x8x8x7x7x256 (Cert.KernelIdeal.KRun.koutOf a0 a1 a2 a3 a4)
          Cert.KernelIdeal.Gen.shapeCasts_S4096x49x256_S64x8x8x7x7x256 := by
  funext j
  rw [eq_ix6 j]
  exact result_at a0 a1 a2 a3 a4 (j 0) (j 1) (j 2) (j 3) (j 4) (j 5)

end Cert.Proof.Bridge

end
-- ==== Proof.lean ====
/-
  The certificate of a windowed multi-head attention kernel against its plain reference, over the extended reals.
  Both programs regroup the input into 4096 windows of 49 tokens and compute, window by window, one function
  `Cert.WinAttn.winSpec`: the joint query/key/value projection, for each of 8 heads the softmax of the scaled
  query–key scores plus a relative-position bias, the weighted sums of the values, and the output projection.  The
  kernel does this 16 windows at a time over a grid of 256 points, head by head on 32-column slices; the reference
  does it on whole arrays with the heads as an extra axis.  No algebraic law beyond re-indexing the sums is needed,
  so the finiteness of the inputs is never used: the two results are the same extended reals at every index.
  The three programs run by their frames; the idealized kernel is the kernel's own text read over the extended
  reals; the value claim joins the kernel's run (its result the rank-6 regrouping of `koutOf`) to the reference's
  run (its result's term read operation by operation) through `Bridge.result_eq`.
-/
import proofs.«420347_j25786983645333_4_alg».proof.Defs
import proofs.«420347_j25786983645333_4_alg».proof.Proof.Gen.Kernel
import proofs.«420347_j25786983645333_4_alg».proof.Proof.Gen.Kernel.Skeleton
import proofs.«420347_j25786983645333_4_alg».proof.Proof.Gen.Kernel.Launch
import proofs.«420347_j25786983645333_4_alg».proof.Proof.Gen.Kernel.Points
import proofs.«420347_j25786983645333_4_alg».proof.Proof.Gen.Kernel.Frame
import proofs.«420347_j25786983645333_4_alg».proof.Proof.Gen.KernelIdeal
import proofs.«420347_j25786983645333_4_alg».proof.Proof.Gen.KernelIdeal.Skeleton
import proofs.«420347_j25786983645333_4_alg».proof.Proof.Gen.KernelIdeal.Launch
import proofs.«420347_j25786983645333_4_alg».proof.Proof.Gen.KernelIdeal.Points
import proofs.«420347_j25786983645333_4_alg».proof.Proof.Gen.KernelIdeal.Frame
import proofs.«420347_j25786983645333_4_alg».proof.Proof.Gen.ReferenceIdeal
import proofs.«420347_j25786983645333_4_alg».proof.Proof.Gen.Pre_finite_inputs
import proofs.«420347_j25786983645333_4_alg».proof.Proof.Gen.ReferenceIdeal.Run
import proofs.«420347_j25786983645333_4_alg».proof.Proof.Gen.ReferenceIdeal.Read
import proofs.«420347_j25786983645333_4_alg».proof.Proof.KRun
import proofs.«420347_j25786983645333_4_alg».proof.Proof.Bridge
import Idealize.ShloMosaic.Adequacy
import Idealize.ShloMosaic.Init

noncomputable section

namespace Cert.Proof

open Idealize.ShloMosaic Idealize.ShloMosaic.TcCoe Idealize.SL.Sem

/-- The kernel as printed terminates without a fault and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel's text was rewritten to read it over the extended reals. -/
theorem preserves : Cert.preserves_Kernel_KernelIdeal := trivial

/-- From memories that agree on the arguments both programs end with the rank-6 regrouping of `koutOf` of the
    arguments. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2.1,
    (hagree c).2.2.2.2]
  exact Cert.Proof.Bridge.result_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
